-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S256x4096 : Shape := ⟨2, ![256, 4096]⟩
abbrev S256 : Shape := ⟨1, ![256]⟩
abbrev S6144x256 : Shape := ⟨2, ![6144, 256]⟩
abbrev S6144 : Shape := ⟨1, ![6144]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S256x4096 : S_.BroadcastsInDim S256x4096 (![] : Fin 0 → Fin S256x4096.rank)
  reducesTo_S256x4096_S_d0_1 : S256x4096.ReducesTo [0, 1] S_
  bcast_S_S256 : S_.BroadcastsInDim S256 (![] : Fin 0 → Fin S256.rank)
  reducesTo_S256_S_d0 : S256.ReducesTo [0] S_
  bcast_S_S6144x256 : S_.BroadcastsInDim S6144x256 (![] : Fin 0 → Fin S6144x256.rank)
  reducesTo_S6144x256_S_d0_1 : S6144x256.ReducesTo [0, 1] S_
  bcast_S_S6144 : S_.BroadcastsInDim S6144 (![] : Fin 0 → Fin S6144.rank)
  reducesTo_S6144_S_d0 : S6144.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  main_v38

def fn_part1 {F : FTy → Type} [FloatOps F] (main_arg4 : FVec F S6144x256 .f32) (main_arg5 : FVec F S6144 .f32) (main_arg6 : FVec F S2048x2048 .f32) (main_arg7 : FVec F S2048 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S6144x256 .f32 := Host.absf main_arg4
  let main_cst_6 : FVec F S_ .f32 := constant S_ .f32 0x7F800000#32
  let main_v20 : FVec F S6144x256 .f32 := broadcastInDim S6144x256 ![] bcast_S_S6144x256 main_cst_6
  let main_v21 : IVec S6144x256 1 := cmpf .olt main_v19 main_v20
  let main_c_7 : IVec S_ 1 := constantI S_ 1 1#1
  let main_v22 : IVec S_ 1 := (fun x v => Host.reduce IntOp.andi x v reducesTo_S6144x256_S_d0_1 h_S_) main_v21 main_c_7
  let main_v23 : IVec S_ 1 := andi main_v18 main_v22
  let main_v24 : FVec F S6144 .f32 := Host.absf main_arg5
  let main_cst_8 : FVec F S_ .f32 := constant S_ .f32 0x7F800000#32
  let main_v25 : FVec F S6144 .f32 := broadcastInDim S6144 ![] bcast_S_S6144 main_cst_8
  let main_v26 : IVec S6144 1 := cmpf .olt main_v24 main_v25
  let main_c_9 : IVec S_ 1 := constantI S_ 1 1#1
  let main_v27 : IVec S_ 1 := (fun x v => Host.reduce IntOp.andi x v reducesTo_S6144_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_v33

def fn {F : FTy → Type} [FloatOps F] (main_arg0 : FVec F S8192x2048 .f32) (main_arg1 : FVec F S8192x2048 .f32) (main_arg2 : FVec F S256x4096 .f32) (main_arg3 : FVec F S256 .f32) (main_arg4 : FVec F S6144x256 .f32) (main_arg5 : FVec F S6144 .f32) (main_arg6 : FVec F S2048x2048 .f32) (main_arg7 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S256x4096 .f32 := Host.absf main_arg2
  let main_cst_2 : FVec F S_ .f32 := constant S_ .f32 0x7F800000#32
  let main_v10 : FVec F S256x4096 .f32 := broadcastInDim S256x4096 ![] bcast_S_S256x4096 main_cst_2
  let main_v11 : IVec S256x4096 1 := cmpf .olt main_v9 main_v10
  let main_c_3 : IVec S_ 1 := constantI S_ 1 1#1
  let main_v12 : IVec S_ 1 := (fun x v => Host.reduce IntOp.andi x v reducesTo_S256x4096_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S8192x2048 : Shape := ⟨2, ![8192, 2048]⟩
abbrev S256x4096 : Shape := ⟨2, ![256, 4096]⟩
abbrev S256 : Shape := ⟨1, ![256]⟩
abbrev S6144x256 : Shape := ⟨2, ![6144, 256]⟩
abbrev S6144 : Shape := ⟨1, ![6144]⟩
abbrev S2048x2048 : Shape := ⟨2, ![2048, 2048]⟩
abbrev S2048 : Shape := ⟨1, ![2048]⟩
abbrev S256x2048 : Shape := ⟨2, ![256, 2048]⟩
abbrev S2048x256 : Shape := ⟨2, ![2048, 256]⟩
abbrev S256x6144 : Shape := ⟨2, ![256, 6144]⟩
abbrev S1x256 : Shape := ⟨2, ![1, 256]⟩
abbrev S1x6144 : Shape := ⟨2, ![1, 6144]⟩
abbrev S1x2048 : Shape := ⟨2, ![1, 2048]⟩
abbrev S128x2048 : Shape := ⟨2, ![128, 2048]⟩
abbrev S128x256 : Shape := ⟨2, ![128, 256]⟩
abbrev S128x6144 : Shape := ⟨2, ![128, 6144]⟩

abbrev nBuf : Space → Nat
  | .hbm => 24
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S256x4096, .f32⟩
  | .hbm, ⟨3, _⟩ => ⟨S256, .f32⟩
  | .hbm, ⟨4, _⟩ => ⟨S6144x256, .f32⟩
  | .hbm, ⟨5, _⟩ => ⟨S6144, .f32⟩
  | .hbm, ⟨6, _⟩ => ⟨S2048x2048, .f32⟩
  | .hbm, ⟨7, _⟩ => ⟨S2048, .f32⟩
  | .hbm, ⟨8, _⟩ => ⟨S256x2048, .f32⟩
  | .hbm, ⟨9, _⟩ => ⟨S256x2048, .f32⟩
  | .hbm, ⟨10, _⟩ => ⟨S2048x256, .f32⟩
  | .hbm, ⟨11, _⟩ => ⟨S2048x256, .bf16⟩
  | .hbm, ⟨12, _⟩ => ⟨S2048x256, .f32⟩
  | .hbm, ⟨13, _⟩ => ⟨S2048x256, .bf16⟩
  | .hbm, ⟨14, _⟩ => ⟨S256x6144, .f32⟩
  | .hbm, ⟨15, _⟩ => ⟨S256x6144, .bf16⟩
  | .hbm, ⟨16, _⟩ => ⟨S2048x2048, .f32⟩
  | .hbm, ⟨17, _⟩ => ⟨S2048x2048, .bf16⟩
  | .hbm, ⟨18, _⟩ => ⟨S1x256, .f32⟩
  | .hbm, ⟨19, _⟩ => ⟨S1x6144, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S2048x256, .bf16⟩
  | .local _ .vmem, ⟨5, _⟩ => ⟨S2048x256, .bf16⟩
  | .local _ .vmem, ⟨6, _⟩ => ⟨S1x256, .f32⟩
  | .local _ .vmem, ⟨7, _⟩ => ⟨S256x6144, .bf16⟩
  | .local _ .vmem, ⟨8, _⟩ => ⟨S1x6144, .f32⟩
  | .local _ .vmem, ⟨9, _⟩ => ⟨S2048x2048, .bf16⟩
  | .local _ .vmem, ⟨10, _⟩ => ⟨S1x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S256x4096_S256x2048_0_0 : S256x4096.Slices ![0, 0] S256x2048
  slices_S256x4096_S256x2048_0_2048 : S256x4096.Slices ![0, 2048] S256x2048
  transposes_S256x2048_S2048x256_1_0 : S256x2048.Transposes [1, 0] S2048x256
  bitsLt_bf16_f32 : FTy.bits .bf16 < FTy.bits .f32
  transposes_S6144x256_S256x6144_1_0 : S6144x256.Transposes [1, 0] S256x6144
  transposes_S2048x2048_S2048x2048_1_0 : S2048x2048.Transposes [1, 0] S2048x2048
  shapeCasts_S256_S1x256 : S256.ShapeCasts S1x256
  shapeCasts_S6144_S1x6144 : S6144.ShapeCasts S1x6144
  shapeCasts_S2048_S1x2048 : S2048.ShapeCasts S1x2048
  inb_S128x2048_S128x2048_0_0 : ∀ a, (![0, 0] : Fin 2 → Nat) a + S128x2048.size a ≤ S128x2048.size a
  h_S128x2048 : 0 < S128x2048.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S256x6144_S256x6144_0_0 : ∀ a, (![0, 0] : Fin 2 → Nat) a + S256x6144.size a ≤ S256x6144.size a
  h_S256x6144 : 0 < S256x6144.numel
  shapeCasts_S256x6144_S256x6144 : S256x6144.ShapeCasts S256x6144
  inb_S1x6144_S1x6144_0_0 : ∀ a, (![0, 0] : Fin 2 → Nat) a + S1x6144.size a ≤ S1x6144.size a
  h_S1x6144 : 0 < S1x6144.numel
  shapeCasts_S1x6144_S1x6144 : S1x6144.ShapeCasts S1x6144
  broadcasts_S1x6144_S128x6144 : S1x6144.Broadcasts S128x6144
  slices_S128x6144_o0_0_S128x2048 : S128x6144.Slices ![0, 0] S128x2048
  slices_S128x6144_o0_2048_S128x2048 : S128x6144.Slices ![0, 2048] S128x2048
  slices_S128x6144_o0_4096_S128x2048 : S128x6144.Slices ![0, 4096] S128x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  dot_S128x2048_S2048x256_S128x256_1_0_0_1_n_n_wf : DotDims.WF S128x2048 S2048x256 S128x256 [1] [0] [0] [1] [] []
  dot_S128x256_S256x6144_S128x6144_1_0_0_1_n_n_wf : DotDims.WF S128x256 S256x6144 S128x6144 [1] [0] [0] [1] [] []
  dot_S128x2048_S2048x2048_S128x2048_1_0_0_1_n_n_wf : DotDims.WF S128x2048 S2048x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S8192x2048.size a
  hwx0_0 : ∀ i : grid0.Coords, EltTy.bits .f32 = 32 ∨ (Rect.block (s := S8192x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S8192x2048.size a
  hwx0_1 : ∀ i : grid0.Coords, EltTy.bits .f32 = 32 ∨ (Rect.block (s := S8192x2048) S128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x256.size a
  hwx0_2 : ∀ i : grid0.Coords, EltTy.bits .bf16 = 32 ∨ (Rect.block (s := S2048x256) S2048x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x256.size a
  hwx0_3 : ∀ i : grid0.Coords, EltTy.bits .bf16 = 32 ∨ (Rect.block (s := S2048x256) S2048x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x6144.size a ≤ S256x6144.size a
  hwx0_5 : ∀ i : grid0.Coords, EltTy.bits .bf16 = 32 ∨ (Rect.block (s := S256x6144) S256x6144.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x6144.size a ≤ S1x6144.size a
  hwx0_6 : ∀ i : grid0.Coords, EltTy.bits .f32 = 32 ∨ (Rect.block (s := S1x6144) S1x6144.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x2048.size a ≤ S2048x2048.size a
  hwx0_7 : ∀ i : grid0.Coords, EltTy.bits .bf16 = 32 ∨ (Rect.block (s := S2048x2048) S2048x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x2048.size a ≤ S8192x2048.size a
  hwx0_9 : ∀ i : grid0.Coords, EltTy.bits .f32 = 32 ∨ (Rect.block (s := S8192x2048) S128x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x2048.size a ≤ S8192x2048.size a
  hwx0_10 : ∀ i : grid0.Coords, EltTy.bits .f32 = 32 ∨ (Rect.block (s := S8192x2048) S128x2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x2048.size a ≤ S8192x2048.size a
  hwx0_11 : ∀ i : grid0.Coords, EltTy.bits .f32 = 32 ∨ (Rect.block (s := S8192x2048) S128x2048.size (cc0_transform_11 i) (hinb0_11 i)).WholeWords (EltTy.packing .f32)

variable [Facts₀]

def dot_S128x2048_S2048x256_S128x256_1_0_0_1_n_n : DotDims S128x2048 S2048x256 S128x256 where
  lhsContracting := [1]
  rhsContracting := [0]
  lhsNonContracting := [0]
  rhsNonContracting := [1]
  lhsBatch := []
  rhsBatch := []
  wf := dot_S128x2048_S2048x256_S128x256_1_0_0_1_n_n_wf
def dot_S128x256_S256x6144_S128x6144_1_0_0_1_n_n : DotDims S128x256 S256x6144 S128x6144 where
  lhsContracting := [1]
  rhsContracting := [0]
  lhsNonContracting := [0]
  rhsNonContracting := [1]
  lhsBatch := []
  rhsBatch := []
  wf := dot_S128x256_S256x6144_S128x6144_1_0_0_1_n_n_wf
def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S256x6144.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x6144.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S2048x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13_0) S128x2048.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v13_1) S128x2048.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v13_2) S128x2048.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S256x4096 : Shape := ⟨2, ![256, 4096]⟩
abbrev S256 : Shape := ⟨1, ![256]⟩
abbrev S6144x256 : Shape := ⟨2, ![6144, 256]⟩
abbrev S6144 : Shape := ⟨1, ![6144]⟩
abbrev S2048x2048 : Shape := ⟨2, ![2048, 2048]⟩
abbrev S2048 : Shape := ⟨1, ![2048]⟩
abbrev S8192x4096 : Shape := ⟨2, ![8192, 4096]⟩
abbrev S4096x256 : Shape := ⟨2, ![4096, 256]⟩
abbrev S8192x256 : Shape := ⟨2, ![8192, 256]⟩
abbrev S1x256 : Shape := ⟨2, ![1, 256]⟩
abbrev S_ : Shape := ⟨0, ![]⟩
abbrev S256x6144 : Shape := ⟨2, ![256, 6144]⟩
abbrev S8192x6144 : Shape := ⟨2, ![8192, 6144]⟩
abbrev S1x6144 : Shape := ⟨2, ![1, 6144]⟩
abbrev S1x2048 : Shape := ⟨2, ![1, 2048]⟩

abbrev nBuf : Space → Nat
  | .hbm => 86
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S256x4096, .f32⟩
  | .hbm, ⟨3, _⟩ => ⟨S256, .f32⟩
  | .hbm, ⟨4, _⟩ => ⟨S6144x256, .f32⟩
  | .hbm, ⟨5, _⟩ => ⟨S6144, .f32⟩
  | .hbm, ⟨6, _⟩ => ⟨S2048x2048, .f32⟩
  | .hbm, ⟨7, _⟩ => ⟨S2048, .f32⟩
  | .hbm, ⟨8, _⟩ => ⟨S8192x4096, .f32⟩
  | .hbm, ⟨9, _⟩ => ⟨S4096x256, .f32⟩
  | .hbm, ⟨10, _⟩ => ⟨S8192x256, .f32⟩
  | .hbm, ⟨11, _⟩ => ⟨S1x256, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S8192x256, .f32⟩
  | .hbm, ⟨16, _⟩ => ⟨S_, .f32⟩
  | .hbm, ⟨17, _⟩ => ⟨S8192x256, .f32⟩
  | .hbm, ⟨18, _⟩ => ⟨S8192x256, .f32⟩
  | .hbm, ⟨19, _⟩ => ⟨S_, .f32⟩
  | .hbm, ⟨20, _⟩ => ⟨S8192x256, .f32⟩
  | .hbm, ⟨21, _⟩ => ⟨S8192x256, .f32⟩
  | .hbm, ⟨22, _⟩ => ⟨S8192x256, .f32⟩
  | .hbm, ⟨23, _⟩ => ⟨S256x6144, .f32⟩
  | .hbm, ⟨24, _⟩ => ⟨S8192x6144, .f32⟩
  | .hbm, ⟨25, _⟩ => ⟨S1x6144, .f32⟩
  | .hbm, ⟨26, _⟩ => ⟨S8192x6144, .f32⟩
  | .hbm, ⟨27, _⟩ => ⟨S8192x6144, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .i1⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S8192x2048, .f32⟩
  | .hbm, ⟨60, _⟩ => ⟨S8192x2048, .f32⟩
  | .hbm, ⟨61, _⟩ => ⟨S_, .f32⟩
  | .hbm, ⟨62, _⟩ => ⟨S8192x2048, .f32⟩
  | .hbm, ⟨63, _⟩ => ⟨S8192x2048, .f32⟩
  | .hbm, ⟨64, _⟩ => ⟨S2048x2048, .f32⟩
  | .hbm, ⟨65, _⟩ => ⟨S8192x2048, .f32⟩
  | .hbm, ⟨66, _⟩ => ⟨S1x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S8192x2048, .f32⟩
  | .hbm, ⟨77, _⟩ => ⟨S8192x2048, .f32⟩
  | .hbm, ⟨78, _⟩ => ⟨S_, .f32⟩
  | .hbm, ⟨79, _⟩ => ⟨S8192x2048, .f32⟩
  | .hbm, ⟨80, _⟩ => ⟨S8192x2048, .f32⟩
  | .hbm, ⟨81, _⟩ => ⟨S_, .f32⟩
  | .hbm, ⟨82, _⟩ => ⟨S8192x2048, .f32⟩
  | .hbm, ⟨83, _⟩ => ⟨S8192x2048, .f32⟩
  | .hbm, ⟨84, _⟩ => ⟨S8192x2048, .f32⟩
  | .hbm, ⟨85, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_cst_0 : Ref sig .tc := ⟨.hbm, 36, rfl⟩
abbrev main_v19 : Ref sig .tc := ⟨.hbm, 37, rfl⟩
abbrev main_v20 : Ref sig .tc := ⟨.hbm, 38, rfl⟩
abbrev main_call1_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_v21 : Ref sig .tc := ⟨.hbm, 52, rfl⟩
abbrev main_cst_1 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_cst_2 : Ref sig .tc := ⟨.hbm, 58, rfl⟩
abbrev main_v26 : Ref sig .tc := ⟨.hbm, 59, rfl⟩
abbrev main_v27 : Ref sig .tc := ⟨.hbm, 60, rfl⟩
abbrev main_cst_3 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_4 : Ref sig .tc := ⟨.hbm, 73, rfl⟩
abbrev main_cst_5 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_v39 : Ref sig .tc := ⟨.hbm, 80, rfl⟩
abbrev main_cst_6 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩

abbrev nD : Nat := 1
abbrev τ : Topo := Topo.v7x

variable {F : FTy → Type} [FloatOps F]

class Facts₀ : Prop where
  concatenates_S8192x2048_S8192x2048_S8192x4096_d1 : Shape.Concatenates [S8192x2048, S8192x2048] S8192x4096 1
  transposes_S256x4096_S4096x256_1_0 : S256x4096.Transposes [1, 0] S4096x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  transposes_S6144x256_S256x6144_1_0 : S6144x256.Transposes [1, 0] S256x6144
  bcast_S6144_S1x6144_1 : S6144.BroadcastsInDim S1x6144 (![1] : Fin 1 → Fin S1x6144.rank)
  bcast_S1x6144_S8192x6144_0_1 : S1x6144.BroadcastsInDim S8192x6144 (![0, 1] : Fin 2 → Fin S8192x6144.rank)
  slices_S8192x6144_S8192x2048_0_0 : S8192x6144.Slices ![0, 0] S8192x2048
  slices_S8192x6144_S8192x2048_0_2048 : S8192x6144.Slices ![0, 2048] S8192x2048
  slices_S8192x6144_S8192x2048_0_4096 : S8192x6144.Slices ![0, 4096] S8192x2048
  bcast_S_S8192x2048 : S_.BroadcastsInDim S8192x2048 (![] : Fin 0 → Fin S8192x2048.rank)
  transposes_S2048x2048_S2048x2048_1_0 : S2048x2048.Transposes [1, 0] S2048x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S8192x4096_S4096x256_S8192x256_1_0_0_1_n_n_wf : DotDims.WF S8192x4096 S4096x256 S8192x256 [1] [0] [0] [1] [] []
  dot_S8192x256_S256x6144_S8192x6144_1_0_0_1_n_n_wf : DotDims.WF S8192x256 S256x6144 S8192x6144 [1] [0] [0] [1] [] []
  dot_S8192x2048_S2048x2048_S8192x2048_1_0_0_1_n_n_wf : DotDims.WF S8192x2048 S2048x2048 S8192x2048 [1] [0] [0] [1] [] []

variable [Facts₀]

def dot_S8192x4096_S4096x256_S8192x256_1_0_0_1_n_n : DotDims S8192x4096 S4096x256 S8192x256 where
  lhsContracting := [1]
  rhsContracting := [0]
  lhsNonContracting := [0]
  rhsNonContracting := [1]
  lhsBatch := []
  rhsBatch := []
  wf := dot_S8192x4096_S4096x256_S8192x256_1_0_0_1_n_n_wf
def dot_S8192x256_S256x6144_S8192x6144_1_0_0_1_n_n : DotDims S8192x256 S256x6144 S8192x6144 where
  lhsContracting := [1]
  rhsContracting := [0]
  lhsNonContracting := [0]
  rhsNonContracting := [1]
  lhsBatch := []
  rhsBatch := []
  wf := dot_S8192x256_S256x6144_S8192x6144_1_0_0_1_n_n_wf
def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.Spec.lean ====
/-
  The gated update of a hidden state, as mathematics on the extended reals.

  For one row of the batch, with h and v that row's 2048 entries:
    pre c  = (sum over k of h k * wh k c) + (sum over k of v k * wv k c) + bi c          (256 controller units)
    act c  = pre c * logistic (pre c)
    out n  = (sum over c of act c * wo c n) + bo n                                        (6144 = three bands of 2048)
    mu q   = m q + sum over k of h k * wm k q
    alpha  = logistic (out q),  beta = min (softplus (out (q + 2048))) 2,  gate = logistic (out (q + 4096))
    v' q   = min 10 (max (-10) (alpha * v q - beta * (h q - mu q)))
    h' q   = h q + (c * gate) * v' q        with c the value of the word 0x3DCCCCCD
  The softplus is written as the two programs write it, log (e^x + e^0) in the arrangement
  max x 0 + log1p (exp (0 - |x - 0|)), behind a test "x - 0 differs from itself" that never holds on the
  extended reals.

  A sum over 4096 inner indices is the sum over its first 2048 plus the sum over its last 2048: addition of
  extended reals is commutative and associative, so no finiteness is asked.
-/
import Idealize.ShloMosaic.Lib.ValueIdx
import Idealize.ShloMosaic.PureOps.Ideal.Laws
import Mathlib.Algebra.BigOperators.Fin

noncomputable section

namespace Cert.Gated

open Idealize.ShloMosaic Idealize.ShloMosaic.ValueIdx

/-! ## Positions on the long axes -/

/-- Inner index k of the first half of a 4096-long axis. -/
abbrev lo (k : Fin 2048) : Fin 4096 := ⟨k.val, by have := k.isLt; omega⟩
/-- Inner index k of the second half of a 4096-long axis. -/
abbrev hi (k : Fin 2048) : Fin 4096 := ⟨k.val + 2048, by have := k.isLt; omega⟩
/-- Column q of the first band of a 6144-long axis. -/
abbrev band0 (q : Fin 2048) : Fin 6144 := ⟨q.val, by have := q.isLt; omega⟩
/-- Column q of the second band. -/
abbrev band1 (q : Fin 2048) : Fin 6144 := ⟨q.val + 2048, by have := q.isLt; omega⟩
/-- Column q of the third band. -/
abbrev band2 (q : Fin 2048) : Fin 6144 := ⟨q.val + 4096, by have := q.isLt; omega⟩

/-- A sum over 4096 indices is the sum over the first half plus the sum over the second half. -/
theorem sum_halves (f : Fin 4096 → EReal) :
    (∑ j : Fin 4096, f j) = (∑ k : Fin 2048, f (lo k)) + ∑ k : Fin 2048, f (hi k) := by
  have h := Fin.sum_univ_add (a := 2048) (b := 2048) (fun j : Fin (2048 + 2048) => f j)
  refine h.trans ?_
  refine congrArg₂ (· + ·) (Finset.sum_congr rfl fun k _ => congrArg f (Fin.ext rfl))
    (Finset.sum_congr rfl fun k _ => congrArg f (Fin.ext ?_))
  show 2048 + k.val = k.val + 2048
  omega

/-! ## The entrywise part -/

/-- x times its logistic. -/
def swish (x : Ideal .f32) : Ideal .f32 := FloatOps.mulf x (FloatOps.logistic x)

/-- The softplus of x, capped at two. -/
def cappedSoftplus (x : Ideal .f32) : Ideal .f32 :=
  FloatOps.minimumf
    (Scalar.select
      (FloatOps.cmpf .one (FloatOps.subf x (Scalar.ofBits .f32 0x00000000#32)) (FloatOps.subf x (Scalar.ofBits .f32 0x00000000#32)))
      (FloatOps.addf x (Scalar.ofBits .f32 0x00000000#32))
      (FloatOps.addf (FloatOps.maximumf x (Scalar.ofBits .f32 0x00000000#32))
        (FloatOps.log1p (FloatOps.exp (FloatOps.subf (Scalar.ofBits .f32 0x00000000#32)
          (FloatOps.absf (FloatOps.subf x (Scalar.ofBits .f32 0x00000000#32))))))))
    (Scalar.ofBits .f32 0x40000000#32)

/-- The new velocity entry from the first two bands' entries a and b, the state's entries hq and vq and the
    contextual mean's entry mc. -/
def newV (a b hq vq mc : Ideal .f32) : Ideal .f32 :=
  FloatOps.minimumf (Scalar.ofBits .f32 0x41200000#32)
    (FloatOps.maximumf (Scalar.ofBits .f32 0xC1200000#32)
      (FloatOps.subf (FloatOps.mulf (FloatOps.logistic a) vq)
        (FloatOps.mulf (cappedSoftplus b) (FloatOps.subf hq mc))))

/-- The new state entry from the third band's entry g, the state's entry hq and the new velocity entry. -/
def newH (g hq vn : Ideal .f32) : Ideal .f32 :=
  FloatOps.addf hq (FloatOps.mulf (FloatOps.mulf (Scalar.ofBits .f32 0x3DCCCCCD#32) (FloatOps.logistic g)) vn)

/-! ## One row -/

section Row

variable (hr vr : Fin 2048 → EReal) (wh wv : Fin 2048 → Fin 256 → EReal) (bi : Fin 256 → EReal)
  (wo : Fin 256 → Fin 6144 → EReal) (bo : Fin 6144 → EReal) (wm : Fin 2048 → Fin 2048 → EReal) (mu : Fin 2048 → EReal)

/-- Controller unit c before its activation. -/
def pre (c : Fin 256) : EReal := ((∑ k : Fin 2048, hr k * wh k c) + ∑ k : Fin 2048, vr k * wv k c) + bi c

/-- Entry n of the controller's 6144 outputs. -/
def out (n : Fin 6144) : EReal := (∑ c : Fin 256, swish (pre hr vr wh wv bi c) * wo c n) + bo n

/-- Entry q of the contextual mean. -/
def ctxMean (q : Fin 2048) : EReal := mu q + ∑ k : Fin 2048, hr k * wm k q

/-- Entry q of the row's new velocity. -/
def rowV (q : Fin 2048) : EReal :=
  newV (out hr vr wh wv bi wo bo (band0 q)) (out hr vr wh wv bi wo bo (band1 q)) (hr q) (vr q) (ctxMean hr wm mu q)

/-- Entry q of the row's new state. -/
def rowH (q : Fin 2048) : EReal :=
  newH (out hr vr wh wv bi wo bo (band2 q)) (hr q) (rowV hr vr wh wv bi wo bo wm mu q)

end Row

/-! ## The three result arrays as functions of the eight argument arrays -/

section Arrays

variable (h v : (⟨2, ![8192, 2048]⟩ : Shape).Idx → EReal) (Win : (⟨2, ![256, 4096]⟩ : Shape).Idx → EReal)
  (bin : (⟨1, ![256]⟩ : Shape).Idx → EReal) (Wout : (⟨2, ![6144, 256]⟩ : Shape).Idx → EReal)
  (bout : (⟨1, ![6144]⟩ : Shape).Idx → EReal) (Wmu : (⟨2, ![2048, 2048]⟩ : Shape).Idx → EReal)
  (mu : (⟨1, ![2048]⟩ : Shape).Idx → EReal)

/-- The contextual mean: row b of the result is `ctxMean` of row b of h, the mean-projection weights read
    transposed. -/
def meanArr : (⟨2, ![8192, 2048]⟩ : Shape).Idx → EReal := fun i =>
  ctxMean (fun k => h (ix2 (i 0) k)) (fun k q => Wmu (ix2 q k)) (fun q => mu (ix1 q)) (i 1)

/-- The new velocity: row b from rows b of h and v; the input weights' first 2048 columns meet h and the last 2048
    meet v; both weight matrices are read transposed. -/
def velArr : (⟨2, ![8192, 2048]⟩ : Shape).Idx → EReal := fun i =>
  rowV (fun k => h (ix2 (i 0) k)) (fun k => v (ix2 (i 0) k)) (fun k c => Win (ix2 c (lo k))) (fun k c => Win (ix2 c (hi k)))
    (fun c => bin (ix1 c)) (fun c n => Wout (ix2 n c)) (fun n => bout (ix1 n)) (fun k q => Wmu (ix2 q k)) (fun q => mu (ix1 q)) (i 1)

/-- The new state, likewise. -/
def stateArr : (⟨2, ![8192, 2048]⟩ : Shape).Idx → EReal := fun i =>
  rowH (fun k => h (ix2 (i 0) k)) (fun k => v (ix2 (i 0) k)) (fun k c => Win (ix2 c (lo k))) (fun k c => Win (ix2 c (hi k)))
    (fun c => bin (ix1 c)) (fun c n => Wout (ix2 n c)) (fun n => bout (ix1 n)) (fun k q => Wmu (ix2 q k)) (fun q => mu (ix1 q)) (i 1)

end Arrays

end Cert.Gated

end
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.KernelPay.lean ====
/-
  What one grid point leaves in each of the three output blocks, entry by entry.

  A grid point holds 128 rows of h and v and the whole of the weights, read as laid out for the matrix unit (inner
  index first). Entry (p, q) of a result block depends on row p of the two state blocks only: it is the row function
  of the specification at that row, with the weights read in place.

  The three products of the body are plain rows-by-columns contractions into a zero accumulator, so at the exact
  instance each entry is the sum over the inner index; a change of float format is the identity there; a one-row
  array spread over the rows is read at its column. The controller's 6144 outputs are then cut in three bands of
  2048 columns, which is reading column q, q + 2048 and q + 4096.
-/
import proofs.«135811_j25323127177574_1_alg».proof.Proof.ValueP
import proofs.«135811_j25323127177574_1_alg».proof.Proof.Spec
import proofs.«135811_j25323127177574_1_alg».proof.Proof.LibPlainDot

noncomputable section

namespace Cert.KernelIdeal.Pay

open Cert.KernelIdeal Cert.KernelIdeal.Gen Idealize.ShloMosaic Idealize.ShloMosaic.ValueIdx Idealize.ShloMosaic.TcCoe Idealize.SL.Sem

/-! ## The three contractions are plain ones -/

theorem dot_in : dot_S128x2048_S2048x256_S128x256_1_0_0_1_n_n = DotDims.plain 128 2048 256 := rfl
theorem dot_out : dot_S128x256_S256x6144_S128x6144_1_0_0_1_n_n = DotDims.plain 128 256 6144 := rfl
theorem dot_mean : dot_S128x2048_S2048x2048_S128x2048_1_0_0_1_n_n = DotDims.plain 128 2048 2048 := rfl

theorem hz : (![0, 0] : Fin 2 → Nat) = fun _ => 0 := funext fun a => by fin_cases a <;> rfl

section Payloads

variable (P0 P1 : Vec Ideal S128x2048 .f32) (P2 P3 : Vec Ideal S2048x256 .bf16) (P4 : Vec Ideal S1x256 .f32)
  (P5 : Vec Ideal S256x6144 .bf16) (P6 : Vec Ideal S1x6144 .f32) (P7 : Vec Ideal S2048x2048 .bf16) (P8 : Vec Ideal S1x2048 .f32)

/-- The contextual mean's payload at (p, q): the mean's entry q plus row p of h against column q of the weights. -/
theorem pay1_apply (p : Fin 128) (q : Fin 2048) :
    k0_pay1 (F := Ideal) (truncf .bf16 P0 bitsLt_bf16_f32) P7 P8 (ix2 p q)
      = Gated.ctxMean (fun k => P0 (ix2 p k)) (fun k q' => P7 (ix2 k q')) (fun q' => P8 (ix2 (0 : Fin 1) q')) q := by
  unfold k0_pay1 Gated.ctxMean
  dsimp only
  refine congrArg₂ (· + ·) ?_ ?_
  · exact (broadcastTo_1b_ab_apply _ _ p q).trans (congrFun (shapeCast_self P8 _) _)
  · refine (Cert.PlainDot.matmul_zero_apply (M := 128) (K := 2048) (N := 2048) none _ _ (ix2 p q)).trans ?_
    refine Finset.sum_congr rfl fun k _ => ?_
    exact congrArg₂ (· * ·) rfl (congrFun (shapeCast_self P7 _) _)

/-- The controller before its activation, at (p, c): row p of h against the first weight block's column c, plus row p
    of v against the second's, plus the bias. -/
theorem pre_apply (p : Fin 128) (c : Fin 256) :
    (addf (addf (matmul dot_S128x2048_S2048x256_S128x256_1_0_0_1_n_n none (k0_pay4 P0) (shapeCast S2048x256 P2 shapeCasts_S2048x256_S2048x256 : FVec Ideal S2048x256 .bf16) (constant S128x256 .f32 0x00000000#32))
        (matmul dot_S128x2048_S2048x256_S128x256_1_0_0_1_n_n none (truncf .bf16 P1 bitsLt_bf16_f32) (shapeCast S2048x256 P3 shapeCasts_S2048x256_S2048x256 : FVec Ideal S2048x256 .bf16) (constant S128x256 .f32 0x00000000#32)))
      (broadcastTo S128x256 (shapeCast S1x256 P4 shapeCasts_S1x256_S1x256 : FVec Ideal S1x256 .f32) broadcasts_S1x256_S128x256) : FVec Ideal S128x256 .f32) (ix2 p c)
      = Gated.pre (fun k => P0 (ix2 p k)) (fun k => P1 (ix2 p k)) (fun k c' => P2 (ix2 k c')) (fun k c' => P3 (ix2 k c'))
          (fun c' => P4 (ix2 (0 : Fin 1) c')) c := by
  unfold Gated.pre
  refine congrArg₂ (· + ·) (congrArg₂ (· + ·) ?_ ?_) ?_
  · refine (Cert.PlainDot.matmul_zero_apply (M := 128) (K := 2048) (N := 256) none _ _ (ix2 p c)).trans ?_
    refine Finset.sum_congr rfl fun k _ => ?_
    exact congrArg₂ (· * ·) rfl (congrFun (shapeCast_self P2 _) _)
  · refine (Cert.PlainDot.matmul_zero_apply (M := 128) (K := 2048) (N := 256) none _ _ (ix2 p c)).trans ?_
    refine Finset.sum_congr rfl fun k _ => ?_
    exact congrArg₂ (· * ·) rfl (congrFun (shapeCast_self P3 _) _)
  · exact (broadcastTo_1b_ab_apply _ _ p c).trans (congrFun (shapeCast_self P4 _) _)

/-- The controller's outputs at (p, n): the activated units of row p against column n of the output weights, plus the
    output bias. -/
theorem pay5_apply (p : Fin 128) (n : Fin 6144) :
    k0_pay5 (F := Ideal) P0 P1 P2 P3 P4 P5 P6 (ix2 p n)
      = Gated.out (fun k => P0 (ix2 p k)) (fun k => P1 (ix2 p k)) (fun k c => P2 (ix2 k c)) (fun k c => P3 (ix2 k c))
          (fun c => P4 (ix2 (0 : Fin 1) c)) (fun c n' => P5 (ix2 c n')) (fun n' => P6 (ix2 (0 : Fin 1) n')) n := by
  unfold k0_pay5 Gated.out
  dsimp only
  refine congrArg₂ (· + ·) ?_ ?_
  · refine (Cert.PlainDot.matmul_zero_apply (M := 128) (K := 256) (N := 6144) none _ _ (ix2 p n)).trans ?_
    refine Finset.sum_congr rfl fun c _ => ?_
    refine congrArg₂ (· * ·) ?_ (congrFun (shapeCast_self P5 _) _)
    exact congrArg Gated.swish (pre_apply P0 P1 P2 P3 P4 p c)
  · exact (broadcastTo_1b_ab_apply _ _ p n).trans (congrFun (shapeCast_self P6 _) _)

/-- Reading a block at an index is reading it at the pair of the index's two coordinates. -/
theorem read_pair (X : Vec Ideal S128x2048 .f32) (j : S128x2048.Idx) : X j = X (ix2 (j 0) (j 1)) :=
  congrArg X (eq_ix2 j)

/-- The contextual mean's payload at any index j: row (j 0) of h, column (j 1). -/
theorem pay1_at (j : S128x2048.Idx) :
    k0_pay1 (F := Ideal) (truncf .bf16 P0 bitsLt_bf16_f32) P7 P8 j
      = Gated.ctxMean (fun k => P0 (ix2 (j 0) k)) (fun k q' => P7 (ix2 k q')) (fun q' => P8 (ix2 (0 : Fin 1) q')) (j 1) := by
  obtain ⟨p, q, rfl⟩ : ∃ (p : Fin 128) (q : Fin 2048), j = ix2 p q := ⟨j 0, j 1, eq_ix2 j⟩
  exact pay1_apply P0 P7 P8 p q

/-- The controller's outputs at any index j: row (j 0) of the two state blocks, column (j 1) of the 6144. -/
theorem pay5_at (j : S128x6144.Idx) :
    k0_pay5 (F := Ideal) P0 P1 P2 P3 P4 P5 P6 j
      = Gated.out (fun k => P0 (ix2 (j 0) k)) (fun k => P1 (ix2 (j 0) k)) (fun k c => P2 (ix2 k c)) (fun k c => P3 (ix2 k c))
          (fun c => P4 (ix2 (0 : Fin 1) c)) (fun c n' => P5 (ix2 c n')) (fun n' => P6 (ix2 (0 : Fin 1) n')) (j 1) := by
  obtain ⟨p, n, rfl⟩ : ∃ (p : Fin 128) (n : Fin 6144), j = ix2 p n := ⟨j 0, j 1, eq_ix2 j⟩
  exact pay5_apply P0 P1 P2 P3 P4 P5 P6 p n

/-! ## A whole block at an entry

The value leg gives each of the first two result blocks as one entrywise expression of the loads, every load and
every payload read at an index whose two coordinates are the entry's row and its column moved by 0, 2048 or 4096.
With the payloads read at an arbitrary index, what is left is that those coordinates are the row p and the columns
q, q + 2048, q + 4096: each holds by computing the coordinate. -/

/-- The new-velocity block's entry (p, q) reads the controller's outputs at columns q and q + 2048 of row p, the two
    state blocks and the contextual mean at (p, q): the row function. -/
theorem vel_entry (p : Fin 128) (q : Fin 2048) :
    ValueP.E10 P0 P1 P2 P3 P4 P5 P6 P7 P8 (ix2 p q)
      = Gated.rowV (fun k => P0 (ix2 p k)) (fun k => P1 (ix2 p k)) (fun k c => P2 (ix2 k c)) (fun k c => P3 (ix2 k c))
          (fun c => P4 (ix2 (0 : Fin 1) c)) (fun c n => P5 (ix2 c n)) (fun n => P6 (ix2 (0 : Fin 1) n))
          (fun k q' => P7 (ix2 k q')) (fun q' => P8 (ix2 (0 : Fin 1) q')) q := by
  unfold ValueP.E10 Gated.rowV Gated.newV Gated.cappedSoftplus
  dsimp only
  rw [read_pair P1 (ValueP.ix10_1 _), read_pair P0 (ValueP.ix10_7 _)]
  simp only [pay5_at, pay1_at]
  rfl

/-- The new-state block's entry (p, q) reads, besides those, the controller's output at column q + 4096. -/
theorem state_entry (p : Fin 128) (q : Fin 2048) :
    ValueP.E9 P0 P1 P2 P3 P4 P5 P6 P7 P8 (ix2 p q)
      = Gated.rowH (fun k => P0 (ix2 p k)) (fun k => P1 (ix2 p k)) (fun k c => P2 (ix2 k c)) (fun k c => P3 (ix2 k c))
          (fun c => P4 (ix2 (0 : Fin 1) c)) (fun c n => P5 (ix2 c n)) (fun n => P6 (ix2 (0 : Fin 1) n))
          (fun k q' => P7 (ix2 k q')) (fun q' => P8 (ix2 (0 : Fin 1) q')) q := by
  unfold ValueP.E9 Gated.rowH Gated.newH Gated.rowV Gated.newV Gated.cappedSoftplus
  dsimp only
  rw [read_pair P0 (ValueP.ix9_0 _), read_pair P1 (ValueP.ix9_3 _)]
  simp only [pay5_at, pay1_at]
  rfl

end Payloads

/-! ## The three output blocks -/

variable (x0 x1 : Vec Ideal S128x2048 .f32) (x2 x3 : Vec Ideal S2048x256 .bf16) (x4 : Vec Ideal S1x256 .f32)
  (x5 : Vec Ideal S256x6144 .bf16) (x6 : Vec Ideal S1x6144 .f32) (x7 : Vec Ideal S2048x2048 .bf16) (x8 : Vec Ideal S1x2048 .f32)

/-- The contextual-mean block at (p, q). -/
theorem out11_apply (p : Fin 128) (q : Fin 2048) :
    out0_11 x0 x1 x2 x3 x4 x5 x6 x7 x8 (ix2 p q)
      = Gated.ctxMean (fun k => x0 (ix2 p k)) (fun k q' => x7 (ix2 k q')) (fun q' => x8 (ix2 (0 : Fin 1) q')) q := by
  unfold out0_11
  rw [View.canon_unit_zero hz]
  simp only [View.ld_unit_zero (S := S128x2048) hz, View.ld_unit_zero (S := S2048x2048) hz, View.ld_unit_zero (S := S1x2048) hz]
  exact pay1_apply x0 x7 x8 p q

/-- The new-velocity block at (p, q). -/
theorem out10_apply (p : Fin 128) (q : Fin 2048) :
    out0_10 x0 x1 x2 x3 x4 x5 x6 x7 x8 (ix2 p q)
      = Gated.rowV (fun k => x0 (ix2 p k)) (fun k => x1 (ix2 p k)) (fun k c => x2 (ix2 k c)) (fun k c => x3 (ix2 k c))
          (fun c => x4 (ix2 (0 : Fin 1) c)) (fun c n => x5 (ix2 c n)) (fun n => x6 (ix2 (0 : Fin 1) n))
          (fun k q' => x7 (ix2 k q')) (fun q' => x8 (ix2 (0 : Fin 1) q')) q := by
  unfold out0_10
  rw [ValueP.canon10_eq]
  simp only [View.ld_unit_zero (S := S128x2048) hz, View.ld_unit_zero (S := S2048x256) hz, View.ld_unit_zero (S := S1x256) hz,
    View.ld_unit_zero (S := S256x6144) hz, View.ld_unit_zero (S := S1x6144) hz, View.ld_unit_zero (S := S2048x2048) hz,
    View.ld_unit_zero (S := S1x2048) hz]
  exact vel_entry x0 x1 x2 x3 x4 x5 x6 x7 x8 p q

/-- The new-state block at (p, q). -/
theorem out9_apply (p : Fin 128) (q : Fin 2048) :
    out0_9 x0 x1 x2 x3 x4 x5 x6 x7 x8 (ix2 p q)
      = Gated.rowH (fun k => x0 (ix2 p k)) (fun k => x1 (ix2 p k)) (fun k c => x2 (ix2 k c)) (fun k c => x3 (ix2 k c))
          (fun c => x4 (ix2 (0 : Fin 1) c)) (fun c n => x5 (ix2 c n)) (fun n => x6 (ix2 (0 : Fin 1) n))
          (fun k q' => x7 (ix2 k q')) (fun q' => x8 (ix2 (0 : Fin 1) q')) q := by
  unfold out0_9
  rw [ValueP.canon9_eq]
  simp only [View.ld_unit_zero (S := S128x2048) hz, View.ld_unit_zero (S := S2048x256) hz, View.ld_unit_zero (S := S1x256) hz,
    View.ld_unit_zero (S := S256x6144) hz, View.ld_unit_zero (S := S1x6144) hz, View.ld_unit_zero (S := S2048x2048) hz,
    View.ld_unit_zero (S := S1x2048) hz]
  exact state_entry x0 x1 x2 x3 x4 x5 x6 x7 x8 p q

end Cert.KernelIdeal.Pay

end
-- ==== Proof.KernelBlocks.lean ====
/-
  From blocks to arrays: the three result arrays after the kernel's run are the specification's arrays of the
  argument arrays.
-/
import proofs.«135811_j25323127177574_1_alg».proof.Proof.KernelPay

noncomputable section

namespace Cert.KernelIdeal.Blocks

open Cert.KernelIdeal Cert.KernelIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-! ## The weight arrays as the kernel's region finds them

Before the region the host lays each weight matrix out inner index first (a slice, a transpose, a change of format
that is the identity on the extended reals) and gives each bias vector a leading axis of length one. Read at an
index, each is an entry of an argument array. -/

/-- The first half of the input weights, inner index first. -/
theorem V_v3_apply (c : Dev nD) (k : Fin 2048) (c' : Fin 256) :
    (V m c main_v3 : S2048x256.Idx → EReal) (ix2 k c') = (m ((c : Thread nD τ).loc main_arg2) : S256x4096.Idx → EReal) (ix2 c' (Gated.lo k)) := by
  have e : (V m c main_v3 : S2048x256.Idx → EReal) = (truncf (F := Ideal) .bf16 (transpose S2048x256 [1, 0] (extractStridedSlice S256x2048 ![0, 0] (m ((c : Thread nD τ).loc main_arg2) : S256x4096.Idx → EReal) slices_S256x4096_S256x2048_0_0) transposes_S256x2048_S2048x256_1_0) bitsLt_bf16_f32 : S2048x256.Idx → EReal) := by
    dsimp only [Gen.V, Gen.hostOps0]; after_results <;> rfl
  rw [e, truncf_apply]
  refine (transpose_apply _ _ _ (ix2 k c') (ix2 c' k) ?_).trans ?_
  · intro b
    match b with
    | ⟨0, _⟩ => rfl
    | ⟨1, _⟩ => rfl
  refine extractStridedSlice_apply _ _ _ (ix2 c' k) (ix2 c' (Gated.lo k)) ?_
  intro a
  match a with
  | ⟨0, _⟩ => show c'.val = 0 + c'.val; omega
  | ⟨1, _⟩ => show k.val = 0 + k.val; omega

/-- The second half of the input weights, inner index first. -/
theorem V_v5_apply (c : Dev nD) (k : Fin 2048) (c' : Fin 256) :
    (V m c main_v5 : S2048x256.Idx → EReal) (ix2 k c') = (m ((c : Thread nD τ).loc main_arg2) : S256x4096.Idx → EReal) (ix2 c' (Gated.hi k)) := by
  have e : (V m c main_v5 : S2048x256.Idx → EReal) = (truncf (F := Ideal) .bf16 (transpose S2048x256 [1, 0] (extractStridedSlice S256x2048 ![0, 2048] (m ((c : Thread nD τ).loc main_arg2) : S256x4096.Idx → EReal) slices_S256x4096_S256x2048_0_2048) transposes_S256x2048_S2048x256_1_0) bitsLt_bf16_f32 : S2048x256.Idx → EReal) := by
    dsimp only [Gen.V, Gen.hostOps0]; after_results <;> rfl
  rw [e, truncf_apply]
  refine (transpose_apply _ _ _ (ix2 k c') (ix2 c' k) ?_).trans ?_
  · intro b
    match b with
    | ⟨0, _⟩ => rfl
    | ⟨1, _⟩ => rfl
  refine extractStridedSlice_apply _ _ _ (ix2 c' k) (ix2 c' (Gated.hi k)) ?_
  intro a
  match a with
  | ⟨0, _⟩ => show c'.val = 0 + c'.val; omega
  | ⟨1, _⟩ => show k.val + 2048 = 2048 + k.val; omega

/-- The output weights, inner index first. -/
theorem V_v7_apply (c : Dev nD) (c' : Fin 256) (n : Fin 6144) :
    (V m c main_v7 : S256x6144.Idx → EReal) (ix2 c' n) = (m ((c : Thread nD τ).loc main_arg4) : S6144x256.Idx → EReal) (ix2 n c') := by
  have e : (V m c main_v7 : S256x6144.Idx → EReal) = (truncf (F := Ideal) .bf16 (transpose S256x6144 [1, 0] (m ((c : Thread nD τ).loc main_arg4) : S6144x256.Idx → EReal) transposes_S6144x256_S256x6144_1_0) bitsLt_bf16_f32 : S256x6144.Idx → EReal) := by
    dsimp only [Gen.V, Gen.hostOps0]; after_results <;> rfl
  rw [e, truncf_apply]
  refine transpose_apply _ _ _ (ix2 c' n) (ix2 n c') ?_
  intro b
  match b with
  | ⟨0, _⟩ => rfl
  | ⟨1, _⟩ => rfl

/-- The mean-projection weights, inner index first. -/
theorem V_v9_apply (c : Dev nD) (k q : Fin 2048) :
    (V m c main_v9 : S2048x2048.Idx → EReal) (ix2 k q) = (m ((c : Thread nD τ).loc main_arg6) : S2048x2048.Idx → EReal) (ix2 q k) := by
  have e : (V m c main_v9 : S2048x2048.Idx → EReal) = (truncf (F := Ideal) .bf16 (transpose S2048x2048 [1, 0] (m ((c : Thread nD τ).loc main_arg6) : S2048x2048.Idx → EReal) transposes_S2048x2048_S2048x2048_1_0) bitsLt_bf16_f32 : S2048x2048.Idx → EReal) := by
    dsimp only [Gen.V, Gen.hostOps0]; after_results <;> rfl
  rw [e, truncf_apply]
  refine transpose_apply _ _ _ (ix2 k q) (ix2 q k) ?_
  intro b
  match b with
  | ⟨0, _⟩ => rfl
  | ⟨1, _⟩ => rfl

/-- The input bias as a one-row matrix. -/
theorem V_v10_apply (c : Dev nD) (c' : Fin 256) :
    (V m c main_v10 : S1x256.Idx → EReal) (ix2 (0 : Fin 1) c') = (m ((c : Thread nD τ).loc main_arg3) : S256.Idx → EReal) (ix1 c') := by
  have e : (V m c main_v10 : S1x256.Idx → EReal) = (shapeCast S1x256 (m ((c : Thread nD τ).loc main_arg3) : S256.Idx → EReal) shapeCasts_S256_S1x256 : S1x256.Idx → EReal) := by
    dsimp only [Gen.V, Gen.hostOps0]; after_results <;> rfl
  rw [e]
  refine shapeCast_apply _ _ (ix2 (0 : Fin 1) c') (ix1 c') ?_
  rw [Shape.rowMajor_val_one, Shape.rowMajor_val_two]
  show c'.val = (0 : Fin 1).val * 256 + c'.val
  simp

/-- The output bias as a one-row matrix. -/
theorem V_v11_apply (c : Dev nD) (n : Fin 6144) :
    (V m c main_v11 : S1x6144.Idx → EReal) (ix2 (0 : Fin 1) n) = (m ((c : Thread nD τ).loc main_arg5) : S6144.Idx → EReal) (ix1 n) := by
  have e : (V m c main_v11 : S1x6144.Idx → EReal) = (shapeCast S1x6144 (m ((c : Thread nD τ).loc main_arg5) : S6144.Idx → EReal) shapeCasts_S6144_S1x6144 : S1x6144.Idx → EReal) := by
    dsimp only [Gen.V, Gen.hostOps0]; after_results <;> rfl
  rw [e]
  refine shapeCast_apply _ _ (ix2 (0 : Fin 1) n) (ix1 n) ?_
  rw [Shape.rowMajor_val_one, Shape.rowMajor_val_two]
  show n.val = (0 : Fin 1).val * 6144 + n.val
  simp

/-- The mean's offset as a one-row matrix. -/
theorem V_v12_apply (c : Dev nD) (q : Fin 2048) :
    (V m c main_v12 : S1x2048.Idx → EReal) (ix2 (0 : Fin 1) q) = (m ((c : Thread nD τ).loc main_arg7) : S2048.Idx → EReal) (ix1 q) := by
  have e : (V m c main_v12 : S1x2048.Idx → EReal) = (shapeCast S1x2048 (m ((c : Thread nD τ).loc main_arg7) : S2048.Idx → EReal) shapeCasts_S2048_S1x2048 : S1x2048.Idx → EReal) := by
    dsimp only [Gen.V, Gen.hostOps0]; after_results <;> rfl
  rw [e]
  refine shapeCast_apply _ _ (ix2 (0 : Fin 1) q) (ix1 q) ?_
  rw [Shape.rowMajor_val_one, Shape.rowMajor_val_two]
  show q.val = (0 : Fin 1).val * 2048 + q.val
  simp

/-! ## Each window's block at a grid point

Point t holds rows 128 t to 128 t + 127 of the two state arrays and of the three results, and the whole of every
weight array. -/

/-- The block indices at each point, decided over the 64 points: the row windows are at block (t, 0), the weight
    windows at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- There are 64 points. -/
theorem lt_points (t : Fin cfg0.N) : t.val < 64 := by
  have h : t.val < cfg0.N := t.isLt
  have hN : cfg0.N = 64 := N_0
  omega

/-- Row p of the state block at point t is row 128 t + p of the state. -/
theorem iblk0_apply (c : Dev nD) (t : Fin cfg0.N) (p : Fin 128) (k : Fin 2048) (r : Fin 8192) (hr : r.val = 128 * t.val + p.val) :
    (iblk m c 0 t : Vec Ideal S128x2048 .f32) (ix2 p k) = (m ((c : Thread nD τ).loc main_arg0) : S8192x2048.Idx → EReal) (ix2 r k) := by
  obtain ⟨⟨e0, e1⟩, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 128 + 1 * p.val = r.val; omega
  | ⟨1, _⟩ => show win0_0.index t (1 : Fin 2) * 2048 + 1 * k.val = k.val; omega

/-- The first input-weight block is the whole array. -/
theorem iblk2_apply (c : Dev nD) (t : Fin cfg0.N) (k : Fin 2048) (c' : Fin 256) :
    (iblk m c 2 t : Vec Ideal S2048x256 .bf16) (ix2 k c') = (m ((c : Thread nD τ).loc main_arg2) : S256x4096.Idx → EReal) (ix2 c' (Gated.lo k)) := by
  obtain ⟨-, -, ⟨e0, e1⟩, -⟩ := idx_facts t
  unfold iblk
  rw [View.read_apply]
  show (V m c main_v3 : S2048x256.Idx → EReal) _ = _
  refine Eq.trans (congrArg _ (funext fun a => Fin.ext ?_)) (V_v3_apply m c k c')
  match a with
  | ⟨0, _⟩ => show win0_2.index t (0 : Fin 2) * 2048 + 1 * k.val = k.val; omega
  | ⟨1, _⟩ => show win0_2.index t (1 : Fin 2) * 256 + 1 * c'.val = c'.val; omega

/-- The input-bias block is the whole one-row array. -/
theorem iblk4_apply (c : Dev nD) (t : Fin cfg0.N) (c' : Fin 256) :
    (iblk m c 4 t : Vec Ideal S1x256 .f32) (ix2 (0 : Fin 1) c') = (m ((c : Thread nD τ).loc main_arg3) : S256.Idx → EReal) (ix1 c') := by
  obtain ⟨-, -, -, -, ⟨e0, e1⟩, -⟩ := idx_facts t
  unfold iblk
  rw [View.read_apply]
  show (V m c main_v10 : S1x256.Idx → EReal) _ = _
  refine Eq.trans (congrArg _ (funext fun a => Fin.ext ?_)) (V_v10_apply m c c')
  match a with
  | ⟨0, _⟩ => show win0_4.index t (0 : Fin 2) * 1 + 1 * (0 : Fin 1).val = (0 : Fin 1).val; omega
  | ⟨1, _⟩ => show win0_4.index t (1 : Fin 2) * 256 + 1 * c'.val = c'.val; omega

/-- Row p of the velocity block at point t is row 128 t + p of the velocity. -/
theorem iblk1_apply (c : Dev nD) (t : Fin cfg0.N) (p : Fin 128) (k : Fin 2048) (r : Fin 8192) (hr : r.val = 128 * t.val + p.val) :
    (iblk m c 1 t : Vec Ideal S128x2048 .f32) (ix2 p k) = (m ((c : Thread nD τ).loc main_arg1) : S8192x2048.Idx → EReal) (ix2 r k) := by
  obtain ⟨-, ⟨e0, e1⟩, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 128 + 1 * p.val = r.val; omega
  | ⟨1, _⟩ => show win0_1.index t (1 : Fin 2) * 2048 + 1 * k.val = k.val; omega

/-- The second input-weight block is the whole array. -/
theorem iblk3_apply (c : Dev nD) (t : Fin cfg0.N) (k : Fin 2048) (c' : Fin 256) :
    (iblk m c 3 t : Vec Ideal S2048x256 .bf16) (ix2 k c') = (m ((c : Thread nD τ).loc main_arg2) : S256x4096.Idx → EReal) (ix2 c' (Gated.hi k)) := by
  obtain ⟨-, -, -, ⟨e0, e1⟩, -⟩ := idx_facts t
  unfold iblk
  rw [View.read_apply]
  show (V m c main_v5 : S2048x256.Idx → EReal) _ = _
  refine Eq.trans (congrArg _ (funext fun a => Fin.ext ?_)) (V_v5_apply m c k c')
  match a with
  | ⟨0, _⟩ => show win0_3.index t (0 : Fin 2) * 2048 + 1 * k.val = k.val; omega
  | ⟨1, _⟩ => show win0_3.index t (1 : Fin 2) * 256 + 1 * c'.val = c'.val; omega

/-- The output-weight block is the whole array. -/
theorem iblk5_apply (c : Dev nD) (t : Fin cfg0.N) (c' : Fin 256) (n : Fin 6144) :
    (iblk m c 5 t : Vec Ideal S256x6144 .bf16) (ix2 c' n) = (m ((c : Thread nD τ).loc main_arg4) : S6144x256.Idx → EReal) (ix2 n c') := by
  obtain ⟨-, -, -, -, -, ⟨e0, e1⟩, -⟩ := idx_facts t
  unfold iblk
  rw [View.read_apply]
  show (V m c main_v7 : S256x6144.Idx → EReal) _ = _
  refine Eq.trans (congrArg _ (funext fun a => Fin.ext ?_)) (V_v7_apply m c c' n)
  match a with
  | ⟨0, _⟩ => show win0_5.index t (0 : Fin 2) * 256 + 1 * c'.val = c'.val; omega
  | ⟨1, _⟩ => show win0_5.index t (1 : Fin 2) * 6144 + 1 * n.val = n.val; omega

/-- The output-bias block is the whole one-row array. -/
theorem iblk6_apply (c : Dev nD) (t : Fin cfg0.N) (n : Fin 6144) :
    (iblk m c 6 t : Vec Ideal S1x6144 .f32) (ix2 (0 : Fin 1) n) = (m ((c : Thread nD τ).loc main_arg5) : S6144.Idx → EReal) (ix1 n) := by
  obtain ⟨-, -, -, -, -, -, ⟨e0, e1⟩, -⟩ := idx_facts t
  unfold iblk
  rw [View.read_apply]
  show (V m c main_v11 : S1x6144.Idx → EReal) _ = _
  refine Eq.trans (congrArg _ (funext fun a => Fin.ext ?_)) (V_v11_apply m c n)
  match a with
  | ⟨0, _⟩ => show win0_6.index t (0 : Fin 2) * 1 + 1 * (0 : Fin 1).val = (0 : Fin 1).val; omega
  | ⟨1, _⟩ => show win0_6.index t (1 : Fin 2) * 6144 + 1 * n.val = n.val; omega

/-- The mean-projection block is the whole array. -/
theorem iblk7_apply (c : Dev nD) (t : Fin cfg0.N) (k q : Fin 2048) :
    (iblk m c 7 t : Vec Ideal S2048x2048 .bf16) (ix2 k q) = (m ((c : Thread nD τ).loc main_arg6) : S2048x2048.Idx → EReal) (ix2 q k) := by
  obtain ⟨-, -, -, -, -, -, -, ⟨e0, e1⟩, -⟩ := idx_facts t
  unfold iblk
  rw [View.read_apply]
  show (V m c main_v9 : S2048x2048.Idx → EReal) _ = _
  refine Eq.trans (congrArg _ (funext fun a => Fin.ext ?_)) (V_v9_apply m c k q)
  match a with
  | ⟨0, _⟩ => show win0_7.index t (0 : Fin 2) * 2048 + 1 * k.val = k.val; omega
  | ⟨1, _⟩ => show win0_7.index t (1 : Fin 2) * 2048 + 1 * q.val = q.val; omega

/-- The mean-offset block is the whole one-row array. -/
theorem iblk8_apply (c : Dev nD) (t : Fin cfg0.N) (q : Fin 2048) :
    (iblk m c 8 t : Vec Ideal S1x2048 .f32) (ix2 (0 : Fin 1) q) = (m ((c : Thread nD τ).loc main_arg7) : S2048.Idx → EReal) (ix1 q) := by
  obtain ⟨-, -, -, -, -, -, -, -, ⟨e0, e1⟩, -⟩ := idx_facts t
  unfold iblk
  rw [View.read_apply]
  show (V m c main_v12 : S1x2048.Idx → EReal) _ = _
  refine Eq.trans (congrArg _ (funext fun a => Fin.ext ?_)) (V_v12_apply m c q)
  match a with
  | ⟨0, _⟩ => show win0_8.index t (0 : Fin 2) * 1 + 1 * (0 : Fin 1).val = (0 : Fin 1).val; omega
  | ⟨1, _⟩ => show win0_8.index t (1 : Fin 2) * 2048 + 1 * q.val = q.val; omega

/-! ## One entry of each result block, from blocks that are rows of the arrays

Stated for any nine blocks and any eight arrays related as the kernel's are: rows p of the two state blocks are
rows r of the two state arrays, and the weight blocks are the weight arrays read inner index first. -/

section AtEntry

variable (A0 A1 : S8192x2048.Idx → EReal) (A2 : S256x4096.Idx → EReal) (A3 : S256.Idx → EReal)
  (A4 : S6144x256.Idx → EReal) (A5 : S6144.Idx → EReal) (A6 : S2048x2048.Idx → EReal) (A7 : S2048.Idx → EReal)
  (x0 x1 : Vec Ideal S128x2048 .f32) (x2 x3 : Vec Ideal S2048x256 .bf16) (x4 : Vec Ideal S1x256 .f32)
  (x5 : Vec Ideal S256x6144 .bf16) (x6 : Vec Ideal S1x6144 .f32) (x7 : Vec Ideal S2048x2048 .bf16) (x8 : Vec Ideal S1x2048 .f32)
  (r : Fin 8192) (p : Fin 128) (q : Fin 2048)

/-- The contextual-mean block's entry (p, q) is the mean array's entry (r, q). -/
theorem mean_at (h0 : ∀ k, x0 (ix2 p k) = A0 (ix2 r k)) (h7 : ∀ k q', x7 (ix2 k q') = A6 (ix2 q' k))
    (h8 : ∀ q', x8 (ix2 (0 : Fin 1) q') = A7 (ix1 q')) :
    out0_11 x0 x1 x2 x3 x4 x5 x6 x7 x8 (ix2 p q) = Gated.meanArr A0 A6 A7 (ix2 r q) := by
  rw [Pay.out11_apply]
  have e0 : (fun k => x0 (ix2 p k)) = fun k => A0 (ix2 r k) := funext h0
  have e7 : (fun k q' => x7 (ix2 k q')) = fun k q' => A6 (ix2 q' k) := funext fun k => funext (h7 k)
  have e8 : (fun q' => x8 (ix2 (0 : Fin 1) q')) = fun q' => A7 (ix1 q') := funext h8
  rw [e0, e7, e8]
  rfl

/-- The new-velocity block's entry (p, q) is the velocity array's entry (r, q). -/
theorem vel_at (h0 : ∀ k, x0 (ix2 p k) = A0 (ix2 r k)) (h1 : ∀ k, x1 (ix2 p k) = A1 (ix2 r k))
    (h2 : ∀ k c', x2 (ix2 k c') = A2 (ix2 c' (Gated.lo k))) (h3 : ∀ k c', x3 (ix2 k c') = A2 (ix2 c' (Gated.hi k)))
    (h4 : ∀ c', x4 (ix2 (0 : Fin 1) c') = A3 (ix1 c')) (h5 : ∀ c' n, x5 (ix2 c' n) = A4 (ix2 n c'))
    (h6 : ∀ n, x6 (ix2 (0 : Fin 1) n) = A5 (ix1 n)) (h7 : ∀ k q', x7 (ix2 k q') = A6 (ix2 q' k))
    (h8 : ∀ q', x8 (ix2 (0 : Fin 1) q') = A7 (ix1 q')) :
    out0_10 x0 x1 x2 x3 x4 x5 x6 x7 x8 (ix2 p q) = Gated.velArr A0 A1 A2 A3 A4 A5 A6 A7 (ix2 r q) := by
  rw [Pay.out10_apply]
  have e0 : (fun k => x0 (ix2 p k)) = fun k => A0 (ix2 r k) := funext h0
  have e1 : (fun k => x1 (ix2 p k)) = fun k => A1 (ix2 r k) := funext h1
  have e2 : (fun k c' => x2 (ix2 k c')) = fun k c' => A2 (ix2 c' (Gated.lo k)) := funext fun k => funext (h2 k)
  have e3 : (fun k c' => x3 (ix2 k c')) = fun k c' => A2 (ix2 c' (Gated.hi k)) := funext fun k => funext (h3 k)
  have e4 : (fun c' => x4 (ix2 (0 : Fin 1) c')) = fun c' => A3 (ix1 c') := funext h4
  have e5 : (fun c' n => x5 (ix2 c' n)) = fun c' n => A4 (ix2 n c') := funext fun c' => funext (h5 c')
  have e6 : (fun n => x6 (ix2 (0 : Fin 1) n)) = fun n => A5 (ix1 n) := funext h6
  have e7 : (fun k q' => x7 (ix2 k q')) = fun k q' => A6 (ix2 q' k) := funext fun k => funext (h7 k)
  have e8 : (fun q' => x8 (ix2 (0 : Fin 1) q')) = fun q' => A7 (ix1 q') := funext h8
  rw [e0, e1, e2, e3, e4, e5, e6, e7, e8]
  rfl

/-- The new-state block's entry (p, q) is the state array's entry (r, q). -/
theorem state_at (h0 : ∀ k, x0 (ix2 p k) = A0 (ix2 r k)) (h1 : ∀ k, x1 (ix2 p k) = A1 (ix2 r k))
    (h2 : ∀ k c', x2 (ix2 k c') = A2 (ix2 c' (Gated.lo k))) (h3 : ∀ k c', x3 (ix2 k c') = A2 (ix2 c' (Gated.hi k)))
    (h4 : ∀ c', x4 (ix2 (0 : Fin 1) c') = A3 (ix1 c')) (h5 : ∀ c' n, x5 (ix2 c' n) = A4 (ix2 n c'))
    (h6 : ∀ n, x6 (ix2 (0 : Fin 1) n) = A5 (ix1 n)) (h7 : ∀ k q', x7 (ix2 k q') = A6 (ix2 q' k))
    (h8 : ∀ q', x8 (ix2 (0 : Fin 1) q') = A7 (ix1 q')) :
    out0_9 x0 x1 x2 x3 x4 x5 x6 x7 x8 (ix2 p q) = Gated.stateArr A0 A1 A2 A3 A4 A5 A6 A7 (ix2 r q) := by
  rw [Pay.out9_apply]
  have e0 : (fun k => x0 (ix2 p k)) = fun k => A0 (ix2 r k) := funext h0
  have e1 : (fun k => x1 (ix2 p k)) = fun k => A1 (ix2 r k) := funext h1
  have e2 : (fun k c' => x2 (ix2 k c')) = fun k c' => A2 (ix2 c' (Gated.lo k)) := funext fun k => funext (h2 k)
  have e3 : (fun k c' => x3 (ix2 k c')) = fun k c' => A2 (ix2 c' (Gated.hi k)) := funext fun k => funext (h3 k)
  have e4 : (fun c' => x4 (ix2 (0 : Fin 1) c')) = fun c' => A3 (ix1 c') := funext h4
  have e5 : (fun c' n => x5 (ix2 c' n)) = fun c' n => A4 (ix2 n c') := funext fun c' => funext (h5 c')
  have e6 : (fun n => x6 (ix2 (0 : Fin 1) n)) = fun n => A5 (ix1 n) := funext h6
  have e7 : (fun k q' => x7 (ix2 k q')) = fun k q' => A6 (ix2 q' k) := funext fun k => funext (h7 k)
  have e8 : (fun q' => x8 (ix2 (0 : Fin 1) q')) = fun q' => A7 (ix1 q') := funext h8
  rw [e0, e1, e2, e3, e4, e5, e6, e7, e8]
  rfl

end AtEntry

/-! ## From the blocks to the three result arrays -/

/-- What point t writes back to the new-state array is block t of the specification's array of the argument arrays. -/
theorem flushed9_eq (c : Dev nD) (t : Fin cfg0.N) :
    (dats m 0 c).flushed 9 t = ((cfg0.win 9).blk t).view.read (Elt Ideal) (Gated.stateArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [ValueP.flushed9]
  obtain ⟨-, -, -, -, -, -, -, -, -, ⟨e0, e1⟩, -⟩ := idx_facts t
  have ht : t.val < 64 := lt_points t
  funext j
  have hj0 : (j 0).val < 128 := (j 0).isLt
  have hj1 : (j 1).val < 2048 := (j 1).isLt
  have hx : (cfg0.win 9).xinj (grid0.coords t) j = ix2 (⟨(j 0).val, hj0⟩ : Fin 128) (⟨(j 1).val, hj1⟩ : Fin 2048) := by
    funext a
    match a with
    | ⟨0, _⟩ => rfl
    | ⟨1, _⟩ => rfl
  have hemb : ((cfg0.win 9).blk t).view.emb j = ix2 (⟨128 * t.val + (j 0).val, by omega⟩ : Fin 8192) (⟨(j 1).val, hj1⟩ : Fin 2048) := by
    funext a
    apply Fin.ext
    match a with
    | ⟨0, _⟩ => show win0_9.index t (0 : Fin 2) * 128 + 1 * (j 0).val = 128 * t.val + (j 0).val; omega
    | ⟨1, _⟩ => show win0_9.index t (1 : Fin 2) * 2048 + 1 * (j 1).val = (j 1).val; omega
  show out0_9 (iblk m c 0 t) (iblk m c 1 t) (iblk m c 2 t) (iblk m c 3 t) (iblk m c 4 t) (iblk m c 5 t) (iblk m c 6 t) (iblk m c 7 t) (iblk m c 8 t) ((cfg0.win 9).xinj (grid0.coords t) j)
    = Gated.stateArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 9).blk t).view.emb j)
  rw [hx, hemb]
  exact state_at _ _ _ _ _ _ _ _ _ _ _ _ _ _ _ _ _ _ _ _
    (fun k => iblk0_apply m c t _ k _ rfl) (fun k => iblk1_apply m c t _ k _ rfl)
    (fun k c' => iblk2_apply m c t k c') (fun k c' => iblk3_apply m c t k c') (fun c' => iblk4_apply m c t c')
    (fun c' n => iblk5_apply m c t c' n) (fun n => iblk6_apply m c t n) (fun k q' => iblk7_apply m c t k q')
    (fun q' => iblk8_apply m c t q')

/-- An index of the new-state array is in point t's block iff each coordinate is in the block's range on its axis. -/
theorem mem_blk9 (t : Fin cfg0.N) (i : S8192x2048.Idx) :
    i ∈ ((cfg0.win 9).blk t).view.set ↔ ∀ a : Fin 2, win0_9.index t a * S128x2048.size a ≤ (i a).val ∧ (i a).val < win0_9.index t a * S128x2048.size a + S128x2048.size a := by
  show i ∈ ((View.whole main_v13_0).slice (win0_9.rect t)).set ↔ _
  rw [View.set_slice_whole, Rect.mem_set_unit]
  exact Iff.rfl

/-- The 64 blocks of 128 rows tile the new-state array: row r is in the block of point r / 128. -/
theorem cover9 (i : S8192x2048.Idx) : ∃ t : Fin cfg0.N, (cfg0.win 9).flush t = true ∧ i ∈ ((cfg0.win 9).blk t).view.set := by
  have hi0 : (i 0).val < 8192 := (i 0).isLt
  have hi1 : (i 1).val < 2048 := (i 1).isLt
  have hN : cfg0.N = 64 := N_0
  let t : Fin cfg0.N := ⟨(i 0).val / 128, by omega⟩
  have htv : t.val = (i 0).val / 128 := rfl
  obtain ⟨-, -, -, -, -, -, -, -, -, ⟨e0, e1⟩, -⟩ := idx_facts t
  refine ⟨t, flush0_9 t, ?_⟩
  rw [mem_blk9]
  intro a
  match a with
  | ⟨0, _⟩ => show win0_9.index t (0 : Fin 2) * 128 ≤ (i 0).val ∧ (i 0).val < win0_9.index t (0 : Fin 2) * 128 + 128; omega
  | ⟨1, _⟩ => show win0_9.index t (1 : Fin 2) * 2048 ≤ (i 1).val ∧ (i 1).val < win0_9.index t (1 : Fin 2) * 2048 + 2048; omega

/-- After the run the new-state array is the specification's array of the argument arrays. -/
theorem final9 (c : Dev nD) : (dats m 0 c).arrAt 9 cfg0.N = Gated.stateArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 9 (Gated.stateArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (fun t _ => flushed9_eq m c t) cover9

/-- What point t writes back to the new-velocity array is block t of the specification's array of the argument arrays. -/
theorem flushed10_eq (c : Dev nD) (t : Fin cfg0.N) :
    (dats m 0 c).flushed 10 t = ((cfg0.win 10).blk t).view.read (Elt Ideal) (Gated.velArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [ValueP.flushed10]
  obtain ⟨-, -, -, -, -, -, -, -, -, -, ⟨e0, e1⟩, -⟩ := idx_facts t
  have ht : t.val < 64 := lt_points t
  funext j
  have hj0 : (j 0).val < 128 := (j 0).isLt
  have hj1 : (j 1).val < 2048 := (j 1).isLt
  have hx : (cfg0.win 10).xinj (grid0.coords t) j = ix2 (⟨(j 0).val, hj0⟩ : Fin 128) (⟨(j 1).val, hj1⟩ : Fin 2048) := by
    funext a
    match a with
    | ⟨0, _⟩ => rfl
    | ⟨1, _⟩ => rfl
  have hemb : ((cfg0.win 10).blk t).view.emb j = ix2 (⟨128 * t.val + (j 0).val, by omega⟩ : Fin 8192) (⟨(j 1).val, hj1⟩ : Fin 2048) := by
    funext a
    apply Fin.ext
    match a with
    | ⟨0, _⟩ => show win0_10.index t (0 : Fin 2) * 128 + 1 * (j 0).val = 128 * t.val + (j 0).val; omega
    | ⟨1, _⟩ => show win0_10.index t (1 : Fin 2) * 2048 + 1 * (j 1).val = (j 1).val; omega
  show out0_10 (iblk m c 0 t) (iblk m c 1 t) (iblk m c 2 t) (iblk m c 3 t) (iblk m c 4 t) (iblk m c 5 t) (iblk m c 6 t) (iblk m c 7 t) (iblk m c 8 t) ((cfg0.win 10).xinj (grid0.coords t) j)
    = Gated.velArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 10).blk t).view.emb j)
  rw [hx, hemb]
  exact vel_at _ _ _ _ _ _ _ _ _ _ _ _ _ _ _ _ _ _ _ _
    (fun k => iblk0_apply m c t _ k _ rfl) (fun k => iblk1_apply m c t _ k _ rfl)
    (fun k c' => iblk2_apply m c t k c') (fun k c' => iblk3_apply m c t k c') (fun c' => iblk4_apply m c t c')
    (fun c' n => iblk5_apply m c t c' n) (fun n => iblk6_apply m c t n) (fun k q' => iblk7_apply m c t k q')
    (fun q' => iblk8_apply m c t q')

/-- An index of the new-velocity array is in point t's block iff each coordinate is in the block's range on its axis. -/
theorem mem_blk10 (t : Fin cfg0.N) (i : S8192x2048.Idx) :
    i ∈ ((cfg0.win 10).blk t).view.set ↔ ∀ a : Fin 2, win0_10.index t a * S128x2048.size a ≤ (i a).val ∧ (i a).val < win0_10.index t a * S128x2048.size a + S128x2048.size a := by
  show i ∈ ((View.whole main_v13_1).slice (win0_10.rect t)).set ↔ _
  rw [View.set_slice_whole, Rect.mem_set_unit]
  exact Iff.rfl

/-- The 64 blocks of 128 rows tile the new-velocity array: row r is in the block of point r / 128. -/
theorem cover10 (i : S8192x2048.Idx) : ∃ t : Fin cfg0.N, (cfg0.win 10).flush t = true ∧ i ∈ ((cfg0.win 10).blk t).view.set := by
  have hi0 : (i 0).val < 8192 := (i 0).isLt
  have hi1 : (i 1).val < 2048 := (i 1).isLt
  have hN : cfg0.N = 64 := N_0
  let t : Fin cfg0.N := ⟨(i 0).val / 128, by omega⟩
  have htv : t.val = (i 0).val / 128 := rfl
  obtain ⟨-, -, -, -, -, -, -, -, -, -, ⟨e0, e1⟩, -⟩ := idx_facts t
  refine ⟨t, flush0_10 t, ?_⟩
  rw [mem_blk10]
  intro a
  match a with
  | ⟨0, _⟩ => show win0_10.index t (0 : Fin 2) * 128 ≤ (i 0).val ∧ (i 0).val < win0_10.index t (0 : Fin 2) * 128 + 128; omega
  | ⟨1, _⟩ => show win0_10.index t (1 : Fin 2) * 2048 ≤ (i 1).val ∧ (i 1).val < win0_10.index t (1 : Fin 2) * 2048 + 2048; omega

/-- After the run the new-velocity array is the specification's array of the argument arrays. -/
theorem final10 (c : Dev nD) : (dats m 0 c).arrAt 10 cfg0.N = Gated.velArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 10 (Gated.velArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (fun t _ => flushed10_eq m c t) cover10

/-- What point t writes back to the contextual-mean array is block t of the specification's array of the argument arrays. -/
theorem flushed11_eq (c : Dev nD) (t : Fin cfg0.N) :
    (dats m 0 c).flushed 11 t = ((cfg0.win 11).blk t).view.read (Elt Ideal) (Gated.meanArr (m ((c : Thread nD τ).loc main_arg0)) (m ((c : Thread nD τ).loc main_arg6)) (m ((c : Thread nD τ).loc main_arg7))) := by
  rw [ValueP.flushed11]
  obtain ⟨-, -, -, -, -, -, -, -, -, -, -, ⟨e0, e1⟩⟩ := idx_facts t
  have ht : t.val < 64 := lt_points t
  funext j
  have hj0 : (j 0).val < 128 := (j 0).isLt
  have hj1 : (j 1).val < 2048 := (j 1).isLt
  have hx : (cfg0.win 11).xinj (grid0.coords t) j = ix2 (⟨(j 0).val, hj0⟩ : Fin 128) (⟨(j 1).val, hj1⟩ : Fin 2048) := by
    funext a
    match a with
    | ⟨0, _⟩ => rfl
    | ⟨1, _⟩ => rfl
  have hemb : ((cfg0.win 11).blk t).view.emb j = ix2 (⟨128 * t.val + (j 0).val, by omega⟩ : Fin 8192) (⟨(j 1).val, hj1⟩ : Fin 2048) := by
    funext a
    apply Fin.ext
    match a with
    | ⟨0, _⟩ => show win0_11.index t (0 : Fin 2) * 128 + 1 * (j 0).val = 128 * t.val + (j 0).val; omega
    | ⟨1, _⟩ => show win0_11.index t (1 : Fin 2) * 2048 + 1 * (j 1).val = (j 1).val; omega
  show out0_11 (iblk m c 0 t) (iblk m c 1 t) (iblk m c 2 t) (iblk m c 3 t) (iblk m c 4 t) (iblk m c 5 t) (iblk m c 6 t) (iblk m c 7 t) (iblk m c 8 t) ((cfg0.win 11).xinj (grid0.coords t) j)
    = Gated.meanArr (m ((c : Thread nD τ).loc main_arg0)) (m ((c : Thread nD τ).loc main_arg6)) (m ((c : Thread nD τ).loc main_arg7)) (((cfg0.win 11).blk t).view.emb j)
  rw [hx, hemb]
  exact mean_at _ _ _ _ _ _ _ _ _ _ _ _ _ _ _
    (fun k => iblk0_apply m c t _ k _ rfl) (fun k q' => iblk7_apply m c t k q') (fun q' => iblk8_apply m c t q')

/-- An index of the contextual-mean array is in point t's block iff each coordinate is in the block's range on its axis. -/
theorem mem_blk11 (t : Fin cfg0.N) (i : S8192x2048.Idx) :
    i ∈ ((cfg0.win 11).blk t).view.set ↔ ∀ a : Fin 2, win0_11.index t a * S128x2048.size a ≤ (i a).val ∧ (i a).val < win0_11.index t a * S128x2048.size a + S128x2048.size a := by
  show i ∈ ((View.whole main_v13_2).slice (win0_11.rect t)).set ↔ _
  rw [View.set_slice_whole, Rect.mem_set_unit]
  exact Iff.rfl

/-- The 64 blocks of 128 rows tile the contextual-mean array: row r is in the block of point r / 128. -/
theorem cover11 (i : S8192x2048.Idx) : ∃ t : Fin cfg0.N, (cfg0.win 11).flush t = true ∧ i ∈ ((cfg0.win 11).blk t).view.set := by
  have hi0 : (i 0).val < 8192 := (i 0).isLt
  have hi1 : (i 1).val < 2048 := (i 1).isLt
  have hN : cfg0.N = 64 := N_0
  let t : Fin cfg0.N := ⟨(i 0).val / 128, by omega⟩
  have htv : t.val = (i 0).val / 128 := rfl
  obtain ⟨-, -, -, -, -, -, -, -, -, -, -, ⟨e0, e1⟩⟩ := idx_facts t
  refine ⟨t, flush0_11 t, ?_⟩
  rw [mem_blk11]
  intro a
  match a with
  | ⟨0, _⟩ => show win0_11.index t (0 : Fin 2) * 128 ≤ (i 0).val ∧ (i 0).val < win0_11.index t (0 : Fin 2) * 128 + 128; omega
  | ⟨1, _⟩ => show win0_11.index t (1 : Fin 2) * 2048 ≤ (i 1).val ∧ (i 1).val < win0_11.index t (1 : Fin 2) * 2048 + 2048; omega

/-- After the run the contextual-mean array is the specification's array of the argument arrays. -/
theorem final11 (c : Dev nD) : (dats m 0 c).arrAt 11 cfg0.N = Gated.meanArr (m ((c : Thread nD τ).loc main_arg0)) (m ((c : Thread nD τ).loc main_arg6)) (m ((c : Thread nD τ).loc main_arg7)) :=
  (dats m 0 c).arrAt_eq_of_cover 11 (Gated.meanArr (m ((c : Thread nD τ).loc main_arg0)) (m ((c : Thread nD τ).loc main_arg6)) (m ((c : Thread nD τ).loc main_arg7))) (fun t _ => flushed11_eq m c t) cover11

/-- The kernel's run at the exact instance: each result array is the specification's array of the argument arrays,
    and the arguments end unchanged. -/
theorem run : θ_run (defs (F := Ideal)) (onTc (τ := τ) (main (F := Ideal))) ⟨m, fun _ => 0, ρ⟩ fun r => ∀ c : Dev nD,
      r.2.mem ((c : Thread nD τ).loc main_v13_0) = Gated.stateArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v13_1) = Gated.velArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v13_2) = Gated.meanArr (m ((c : Thread nD τ).loc main_arg0)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  exact (θ_run defs _ _).mono (fun r h c => ⟨(h c).1.trans (final9 m c), (h c).2.1.trans (final10 m c),
      (h c).2.2.1.trans (final11 m c), (h c).2.2.2⟩)
    (ValueP.run_blocks m ρ)

end Cert.KernelIdeal.Blocks

end
-- ==== Proof.RefSide.lean ====
/-
  The reference's three results, entry by entry, are the specification's arrays of the argument arrays.
-/
import proofs.«135811_j25323127177574_1_alg».proof.Proof.Gen.ReferenceIdeal.Read
import proofs.«135811_j25323127177574_1_alg».proof.Proof.Spec
import proofs.«135811_j25323127177574_1_alg».proof.Proof.LibPlainDot
import Idealize.ShloMosaic.Lib.IdealHost

noncomputable section

namespace Cert.ReferenceIdeal.RefValue

open Cert.ReferenceIdeal Cert.ReferenceIdeal.Gen Idealize.ShloMosaic Idealize.ShloMosaic.ValueIdx Idealize.ShloMosaic.TcCoe Idealize.SL.Sem

variable (x0 x1 : (⟨S8192x2048, .f32⟩ : BufTy).Contents (Elt Ideal)) (x2 : (⟨S256x4096, .f32⟩ : BufTy).Contents (Elt Ideal))
  (x3 : (⟨S256, .f32⟩ : BufTy).Contents (Elt Ideal)) (x4 : (⟨S6144x256, .f32⟩ : BufTy).Contents (Elt Ideal))
  (x5 : (⟨S6144, .f32⟩ : BufTy).Contents (Elt Ideal)) (x6 : (⟨S2048x2048, .f32⟩ : BufTy).Contents (Elt Ideal))
  (x7 : (⟨S2048, .f32⟩ : BufTy).Contents (Elt Ideal))

/-! ## The contextual mean -/

/-- Entry (b, q) of the reference's contextual mean: the mean's entry q plus row b of the state against row q of
    the projection weights. -/
theorem mean_at (b : Fin 8192) (q : Fin 2048) :
    Read.val_main_v34 (F := Ideal) x0 x6 x7 (ix2 b q)
      = Gated.ctxMean (fun k => x0 (ix2 b k)) (fun k q => x6 (ix2 q k)) (fun q => x7 (ix1 q)) q := by
  rw [Read.val_main_v34_apply, Read.val_main_v33_apply, Read.val_main_v32_apply, Read.val_main_v31_apply]
  simp only [Read.val_main_v30_apply]
  have e7 : Read.idx_main_v32 (Read.idx_main_v33 (ix2 b q)) = ix1 q := by
    funext a; match a with | ⟨0, _⟩ => rfl
  have el : ∀ k : Fin 2048, Read.lidx_main_v31 (ix2 b q) k = ix2 b k := fun k => by
    funext a; match a with | ⟨0, _⟩ => rfl | ⟨1, _⟩ => rfl
  have er : ∀ k : Fin 2048, Read.idx_main_v30 (Read.ridx_main_v31 (ix2 b q) k) = ix2 q k := fun k => by
    funext a; match a with | ⟨0, _⟩ => rfl | ⟨1, _⟩ => rfl
  simp only [e7, el, er]
  rfl

/-- The third result (the contextual mean). -/
theorem mean_eq : Read.val_main_v34 (F := Ideal) x0 x6 x7 = Gated.meanArr x0 x6 x7 := by
  funext i
  obtain ⟨b, q, rfl⟩ : ∃ (b : Fin 8192) (q : Fin 2048), i = ix2 b q := ⟨i 0, i 1, eq_ix2 i⟩
  exact mean_at x0 x6 x7 b q

/-! ## Scalar pieces -/

/-- One over one plus e to the minus x, the one given by its word, is the logistic of x. -/
theorem logistic_host (x : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf x)))
      = FloatOps.logistic x := by
  show Ideal.div (Ideal.ofBits .f32 0x3F800000#32) (Ideal.ofBits .f32 0x3F800000#32 + Ideal.exp (-x))
    = Ideal.div 1 (1 + Ideal.exp (-x))
  rw [Ideal.ofBits_one_f32]

/-- The reference's softplus and its cap at two are the specification's: "differs" is one test on the extended
    reals whichever way it treats unordered pairs, and minus |d| is zero minus |d|. -/
theorem softplus_host (x : Ideal .f32) :
    FloatOps.minimumf
        (Scalar.select
          (FloatOps.cmpf .une (FloatOps.subf x (FloatOps.ofBits (F := Ideal) .f32 0x00000000#32))
            (FloatOps.subf x (FloatOps.ofBits (F := Ideal) .f32 0x00000000#32)))
          (FloatOps.addf x (FloatOps.ofBits (F := Ideal) .f32 0x00000000#32))
          (FloatOps.addf (FloatOps.maximumf x (FloatOps.ofBits (F := Ideal) .f32 0x00000000#32))
            (FloatOps.hostUnary .log1p (FloatOps.hostUnary .exp (FloatOps.hostNegf
              (FloatOps.hostAbsf (FloatOps.subf x (FloatOps.ofBits (F := Ideal) .f32 0x00000000#32))))))))
        (FloatOps.ofBits (F := Ideal) .f32 0x40000000#32)
      = Gated.cappedSoftplus x := by
  have hn : ∀ y : EReal, -y = Ideal.ofBits .f32 0x00000000#32 - y := fun y => by
    rw [Ideal.ofBits_zero_f32, zero_sub]
  unfold Gated.cappedSoftplus
  show min (Scalar.select (Ideal.cmp .une _ _) _ (_ + Ideal.log1p (Ideal.exp (-(FloatOps.absf (x - Ideal.ofBits .f32 0x00000000#32)))))) _ = _
  rw [hn]
  rfl

/-! ## The joined rows -/

/-- The joined array at a column of its first half is the state there. -/
theorem v0_lo (b : Fin 8192) (k : Fin 2048) :
    Read.val_main_v0 (F := Ideal) x0 x1 (ix2 b (Gated.lo k)) = x0 (ix2 b k) := by
  unfold Read.val_main_v0
  exact concatenate_pair_apply_left _ x0 x1 _ (ix2 b (Gated.lo k)) rfl (ix2 b k)
    (fun a => match a with | ⟨0, _⟩ => rfl | ⟨1, _⟩ => rfl)

/-- The joined array at a column of its second half is the velocity at that column less 2048. -/
theorem v0_hi (b : Fin 8192) (k : Fin 2048) :
    Read.val_main_v0 (F := Ideal) x0 x1 (ix2 b (Gated.hi k)) = x1 (ix2 b k) := by
  unfold Read.val_main_v0
  exact concatenate_pair_apply_right _ x0 x1 _ (ix2 b (Gated.hi k)) rfl rfl (ix2 b k)
    (fun a => match a with | ⟨0, _⟩ => fun _ => rfl | ⟨1, _⟩ => fun h => absurd rfl h)
    rfl

/-! ## The controller -/

/-- Entry (b, c) of the controller before its activation: the sum over the 4096 joined columns splits into the
    state's half and the velocity's half. -/
theorem pre_at (b : Fin 8192) (c : Fin 256) :
    Read.val_main_v5 (F := Ideal) x0 x1 x2 x3 (ix2 b c)
      = Gated.pre (fun k => x0 (ix2 b k)) (fun k => x1 (ix2 b k)) (fun k c => x2 (ix2 c (Gated.lo k)))
          (fun k c => x2 (ix2 c (Gated.hi k))) (fun c => x3 (ix1 c)) c := by
  rw [Read.val_main_v5_apply, Read.val_main_v4_apply, Read.val_main_v3_apply, Read.val_main_v2_apply]
  simp only [Read.val_main_v1_apply]
  have e3 : Read.idx_main_v3 (Read.idx_main_v4 (ix2 b c)) = ix1 c := by
    funext a; match a with | ⟨0, _⟩ => rfl
  have el : ∀ k : Fin 4096, Read.lidx_main_v2 (ix2 b c) k = ix2 b k := fun k => by
    funext a; match a with | ⟨0, _⟩ => rfl | ⟨1, _⟩ => rfl
  have er : ∀ k : Fin 4096, Read.idx_main_v1 (Read.ridx_main_v2 (ix2 b c) k) = ix2 c k := fun k => by
    funext a; match a with | ⟨0, _⟩ => rfl | ⟨1, _⟩ => rfl
  simp only [e3, el, er]
  rw [Gated.sum_halves]
  simp only [v0_lo, v0_hi]
  rfl

/-- Entry (b, c) of the activated controller. -/
theorem act_at (b : Fin 8192) (c : Fin 256) :
    Read.val_main_v6 (F := Ideal) x0 x1 x2 x3 (ix2 b c)
      = Gated.swish (Read.val_main_v5 (F := Ideal) x0 x1 x2 x3 (ix2 b c)) := by
  rw [Read.val_main_v6_apply, Read.val_main_call0_v5_apply, Read.val_main_call0_v4_apply,
    Read.val_main_call0_cst_0_apply, Read.val_main_call0_v3_apply, Read.val_main_call0_v2_apply,
    Read.val_main_call0_cst_apply, Read.val_main_call0_v1_apply, Read.val_main_call0_v0_apply, logistic_host]
  rfl

/-- Entry (b, n) of the controller's 6144 outputs. -/
theorem out_at (b : Fin 8192) (n : Fin 6144) :
    Read.val_main_v11 (F := Ideal) x0 x1 x2 x3 x4 x5 (ix2 b n)
      = Gated.out (fun k => x0 (ix2 b k)) (fun k => x1 (ix2 b k)) (fun k c => x2 (ix2 c (Gated.lo k)))
          (fun k c => x2 (ix2 c (Gated.hi k))) (fun c => x3 (ix1 c)) (fun c n => x4 (ix2 n c))
          (fun n => x5 (ix1 n)) n := by
  rw [Read.val_main_v11_apply, Read.val_main_v10_apply, Read.val_main_v9_apply, Read.val_main_v8_apply]
  simp only [Read.val_main_v7_apply]
  have e5 : Read.idx_main_v9 (Read.idx_main_v10 (ix2 b n)) = ix1 n := by
    funext a; match a with | ⟨0, _⟩ => rfl
  have el : ∀ c : Fin 256, Read.lidx_main_v8 (ix2 b n) c = ix2 b c := fun c => by
    funext a; match a with | ⟨0, _⟩ => rfl | ⟨1, _⟩ => rfl
  have er : ∀ c : Fin 256, Read.idx_main_v7 (Read.ridx_main_v8 (ix2 b n) c) = ix2 n c := fun c => by
    funext a; match a with | ⟨0, _⟩ => rfl | ⟨1, _⟩ => rfl
  simp only [e5, el, er, act_at, pre_at]
  rfl

/-! ## The three bands -/

theorem band0_at (b : Fin 8192) (q : Fin 2048) :
    Read.val_main_v12 (F := Ideal) x0 x1 x2 x3 x4 x5 (ix2 b q)
      = Read.val_main_v11 (F := Ideal) x0 x1 x2 x3 x4 x5 (ix2 b (Gated.band0 q)) := by
  rw [Read.val_main_v12_apply]
  refine congrArg _ (funext fun a => ?_)
  match a with | ⟨0, _⟩ => rfl | ⟨1, _⟩ => rfl

theorem band1_at (b : Fin 8192) (q : Fin 2048) :
    Read.val_main_v13 (F := Ideal) x0 x1 x2 x3 x4 x5 (ix2 b q)
      = Read.val_main_v11 (F := Ideal) x0 x1 x2 x3 x4 x5 (ix2 b (Gated.band1 q)) := by
  rw [Read.val_main_v13_apply]
  refine congrArg _ (funext fun a => ?_)
  match a with | ⟨0, _⟩ => rfl | ⟨1, _⟩ => exact Fin.ext (Nat.add_comm _ _)

theorem band2_at (b : Fin 8192) (q : Fin 2048) :
    Read.val_main_v14 (F := Ideal) x0 x1 x2 x3 x4 x5 (ix2 b q)
      = Read.val_main_v11 (F := Ideal) x0 x1 x2 x3 x4 x5 (ix2 b (Gated.band2 q)) := by
  rw [Read.val_main_v14_apply]
  refine congrArg _ (funext fun a => ?_)
  match a with | ⟨0, _⟩ => rfl | ⟨1, _⟩ => exact Fin.ext (Nat.add_comm _ _)

/-! ## The entrywise tail -/

/-- The first band through the logistic. -/
theorem alpha_at (b : Fin 8192) (q : Fin 2048) :
    Read.val_main_v20 (F := Ideal) x0 x1 x2 x3 x4 x5 (ix2 b q)
      = (FloatOps.logistic (Read.val_main_v12 (F := Ideal) x0 x1 x2 x3 x4 x5 (ix2 b q) : Ideal .f32) : Ideal .f32) := by
  rw [Read.val_main_v20_apply, Read.val_main_v19_apply, Read.val_main_cst_0_apply, Read.val_main_v18_apply,
    Read.val_main_v17_apply, Read.val_main_cst_apply, Read.val_main_v16_apply, Read.val_main_v15_apply, logistic_host]

/-- The third band through the logistic. -/
theorem gate_at (b : Fin 8192) (q : Fin 2048) :
    Read.val_main_v29 (F := Ideal) x0 x1 x2 x3 x4 x5 (ix2 b q)
      = (FloatOps.logistic (Read.val_main_v14 (F := Ideal) x0 x1 x2 x3 x4 x5 (ix2 b q) : Ideal .f32) : Ideal .f32) := by
  rw [Read.val_main_v29_apply, Read.val_main_v28_apply, Read.val_main_cst_3_apply, Read.val_main_v27_apply,
    Read.val_main_v26_apply, Read.val_main_cst_2_apply, Read.val_main_v25_apply, Read.val_main_v24_apply, logistic_host]

/-- The second band through the softplus capped at two. -/
theorem beta_at (b : Fin 8192) (q : Fin 2048) :
    Read.val_main_v23 (F := Ideal) x0 x1 x2 x3 x4 x5 (ix2 b q)
      = Gated.cappedSoftplus (Read.val_main_v13 (F := Ideal) x0 x1 x2 x3 x4 x5 (ix2 b q)) := by
  rw [Read.val_main_v23_apply, Read.val_main_v22_apply, Read.val_main_cst_1_apply, Read.val_main_v21_apply,
    Read.val_main_call1_v4_apply, Read.val_main_call1_v6_apply, Read.val_main_call1_v11_apply,
    Read.val_main_call1_v1_apply, Read.val_main_call1_v10_apply, Read.val_main_call1_v9_apply,
    Read.val_main_call1_v8_apply, Read.val_main_call1_v7_apply, Read.val_main_call1_v3_apply,
    Read.val_main_call1_v0_apply, Read.val_main_call1_v2_apply, Read.val_main_call1_v5_apply,
    Read.val_main_call1_cst_apply, softplus_host]

/-- Entry (b, q) of the reference's new velocity. -/
theorem vel_at (b : Fin 8192) (q : Fin 2048) :
    Read.val_main_v39 (F := Ideal) x0 x1 x2 x3 x4 x5 x6 x7 (ix2 b q)
      = Gated.rowV (fun k => x0 (ix2 b k)) (fun k => x1 (ix2 b k)) (fun k c => x2 (ix2 c (Gated.lo k)))
          (fun k c => x2 (ix2 c (Gated.hi k))) (fun c => x3 (ix1 c)) (fun c n => x4 (ix2 n c))
          (fun n => x5 (ix1 n)) (fun k q => x6 (ix2 q k)) (fun q => x7 (ix1 q)) q := by
  rw [Read.val_main_v39_apply, Read.val_main_call2_v4_apply, Read.val_main_call2_v3_apply, Read.val_main_cst_5_apply,
    Read.val_main_call2_v2_apply, Read.val_main_call2_v1_apply, Read.val_main_call2_v0_apply,
    Read.val_main_cst_4_apply, Read.val_main_v38_apply, Read.val_main_v36_apply, Read.val_main_v37_apply,
    Read.val_main_v35_apply, alpha_at, beta_at, band0_at, band1_at, out_at, out_at, mean_at]
  rfl

/-- Entry (b, q) of the reference's new state. -/
theorem state_at (b : Fin 8192) (q : Fin 2048) :
    Read.val_main_v43 (F := Ideal) x0 x1 x2 x3 x4 x5 x6 x7 (ix2 b q)
      = Gated.rowH (fun k => x0 (ix2 b k)) (fun k => x1 (ix2 b k)) (fun k c => x2 (ix2 c (Gated.lo k)))
          (fun k c => x2 (ix2 c (Gated.hi k))) (fun c => x3 (ix1 c)) (fun c n => x4 (ix2 n c))
          (fun n => x5 (ix1 n)) (fun k q => x6 (ix2 q k)) (fun q => x7 (ix1 q)) q := by
  rw [Read.val_main_v43_apply, Read.val_main_v42_apply, Read.val_main_v41_apply, Read.val_main_v40_apply,
    Read.val_main_cst_6_apply, gate_at, band2_at, out_at, vel_at]
  rfl

/-- The second result (the new velocity). -/
theorem vel_eq : Read.val_main_v39 (F := Ideal) x0 x1 x2 x3 x4 x5 x6 x7 = Gated.velArr x0 x1 x2 x3 x4 x5 x6 x7 := by
  funext i
  obtain ⟨b, q, rfl⟩ : ∃ (b : Fin 8192) (q : Fin 2048), i = ix2 b q := ⟨i 0, i 1, eq_ix2 i⟩
  exact vel_at x0 x1 x2 x3 x4 x5 x6 x7 b q

/-- The first result (the new state). -/
theorem state_eq : Read.val_main_v43 (F := Ideal) x0 x1 x2 x3 x4 x5 x6 x7 = Gated.stateArr x0 x1 x2 x3 x4 x5 x6 x7 := by
  funext i
  obtain ⟨b, q, rfl⟩ : ∃ (b : Fin 8192) (q : Fin 2048), i = ix2 b q := ⟨i 0, i 1, eq_ix2 i⟩
  exact state_at x0 x1 x2 x3 x4 x5 x6 x7 b q

/-- The reference's run at the exact instance, its results stated as the specification's arrays. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v43) = Gated.stateArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v39) = Gated.velArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v34) = Gated.meanArr (m ((c.tc : Thread nD τ).loc main_arg0)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨by rw [(h c).1, Read.val_main_v43_eq, state_eq],
      by rw [(h c).2.1, Read.val_main_v39_eq, vel_eq],
      by rw [(h c).2.2.1, Read.val_main_v34_eq, mean_eq],
      (h c).2.2.2⟩)
    (Cert.ReferenceIdeal.Value.run (F := Ideal) m ρ)

end Cert.ReferenceIdeal.RefValue

end
-- ==== Proof.lean ====
/-
  The gated update of a hidden state: the kernel against its reference, over the extended reals.

  Both programs compute, for every row of the batch, the three arrays of Proof/Spec.lean (the new state, the new
  velocity and the contextual mean) from the eight argument arrays.
  The kernel walks the batch in 64 blocks of 128 rows and holds the weights whole, laid out inner index first, and its
  first contraction is two products, one over the state's 2048 columns and one over the velocity's; the reference
  joins state and velocity into 4096 columns and contracts once, and writes its logistic as one over one plus the
  exponential of the negation. At the exact instance a product into a zero accumulator and the host's dot product are
  the same sum, a sum over 4096 indices is the sum over its two halves (no finiteness is asked: only that addition of
  extended reals is commutative and associative), the logistic is that quotient by definition, and the softplus's two
  spellings of "minus |d|" and of "differs" agree. So the precondition is never opened.
  Proof/KernelBlocks.lean has the kernel's run with its results as the specification's arrays (over Proof/KernelPay.lean:
  one block, entry by entry); Proof/RefSide.lean has the reference's. The three frames are the programs' runs with the
  results dropped, and the idealization changed no operation.
-/
import proofs.«135811_j25323127177574_1_alg».proof.Defs
import proofs.«135811_j25323127177574_1_alg».proof.Proof.Gen.Kernel
import proofs.«135811_j25323127177574_1_alg».proof.Proof.Gen.Kernel.Skeleton
import proofs.«135811_j25323127177574_1_alg».proof.Proof.Gen.Kernel.Launch
import proofs.«135811_j25323127177574_1_alg».proof.Proof.Gen.Kernel.Points
import proofs.«135811_j25323127177574_1_alg».proof.Proof.Gen.Kernel.Frame
import proofs.«135811_j25323127177574_1_alg».proof.Proof.Gen.KernelIdeal
import proofs.«135811_j25323127177574_1_alg».proof.Proof.Gen.KernelIdeal.Skeleton
import proofs.«135811_j25323127177574_1_alg».proof.Proof.Gen.KernelIdeal.Launch
import proofs.«135811_j25323127177574_1_alg».proof.Proof.Gen.KernelIdeal.Points
import proofs.«135811_j25323127177574_1_alg».proof.Proof.Gen.KernelIdeal.Frame
import proofs.«135811_j25323127177574_1_alg».proof.Proof.Gen.ReferenceIdeal
import proofs.«135811_j25323127177574_1_alg».proof.Proof.Gen.Pre_finite_inputs
import proofs.«135811_j25323127177574_1_alg».proof.Proof.Gen.ReferenceIdeal.Run
import proofs.«135811_j25323127177574_1_alg».proof.Proof.Gen.ReferenceIdeal.Read
import proofs.«135811_j25323127177574_1_alg».proof.Proof.KernelBlocks
import proofs.«135811_j25323127177574_1_alg».proof.Proof.RefSide
import Idealize.ShloMosaic.Adequacy
import Idealize.ShloMosaic.Init

noncomputable section

namespace Cert.Proof

open Idealize.ShloMosaic Idealize.SL.Sem Cert.Kernel

/-- The word-level kernel runs and leaves its arguments as they were. -/
theorem frame_kernel : Cert.frame_Kernel := fun m ρ _ => Cert.Kernel.Gen.frame m ρ

/-- So does the kernel read at the exact instance. -/
theorem frame_kernel_ideal : Cert.frame_KernelIdeal := fun m ρ _ => Cert.KernelIdeal.Gen.frame m ρ

/-- The reference's frame is its run with the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories that agree on the eight arguments, both programs end with the specification's three arrays of
    those arguments. -/
theorem algebraic : Cert.algebraic_KernelIdeal_ReferenceIdeal := by
  intro m ρ m' ρ' _ hagree
  refine ⟨fun c => Cert.Gated.stateArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Gated.velArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Gated.meanArr (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Blocks.run m ρ, ?_⟩
  refine (θ_run Cert.ReferenceIdeal.defs _ _).mono (fun _ h c => ?_) (Cert.ReferenceIdeal.RefValue.run m' ρ')
  obtain ⟨a0, a1, a2, a3, a4, a5, a6, a7⟩ := hagree c
  exact ⟨by rw [(h c).1, a0, a1, a2, a3, a4, a5, a6, a7], by rw [(h c).2.1, a0, a1, a2, a3, a4, a5, a6, a7],
    by rw [(h c).2.2.1, a0, a6, a7], (h c).2.2.2⟩

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
